-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x14x48x256x256 : Shape := ⟨5, ![2, 14, 48, 256, 256]⟩
abbrev S2x48x256x256 : Shape := ⟨4, ![2, 48, 256, 256]⟩
abbrev S_ : Shape := ⟨0, ![]⟩

class Facts : Prop where
  bcast_S_S2x14x48x256x256 : S_.BroadcastsInDim S2x14x48x256x256 (![] : Fin 0 → Fin S2x14x48x256x256.rank)
  reducesTo_S2x14x48x256x256_S_d0_1_2_3_4 : S2x14x48x256x256.ReducesTo [0, 1, 2, 3, 4] S_
  h_S_ : 0 < S_.numel

variable [Facts]

def fn {F : FTy → Type} [FloatOps F] (main_arg0 : FVec F S2x14x48x256x256 .f32) (main_arg1 : FVec F S2x14x48x256x256 .f32) (main_arg2 : IVec S2x48x256x256 32) : IVec S_ 1 :=
  let main_v0 : FVec F S2x14x48x256x256 .f32 := Host.absf main_arg0
  let main_cst : FVec F S_ .f32 := constant S_ .f32 0x7F800000#32
  let main_v1 : FVec F S2x14x48x256x256 .f32 := broadcastInDim S2x14x48x256x256 ![] bcast_S_S2x14x48x256x256 main_cst
  let main_v2 : IVec S2x14x48x256x256 1 := cmpf .olt main_v0 main_v1
  let main_c : IVec S_ 1 := constantI S_ 1 1#1
  let main_v3 : IVec S_ 1 := (fun x v => Host.reduce IntOp.andi x v reducesTo_S2x14x48x256x256_S_d0_1_2_3_4 h_S_) main_v2 main_c
  let main_v4 : FVec F S2x14x48x256x256 .f32 := Host.absf main_arg1
  let main_cst_0 : FVec F S_ .f32 := constant S_ .f32 0x7F800000#32
  let main_v5 : FVec F S2x14x48x256x256 .f32 := broadcastInDim S2x14x48x256x256 ![] bcast_S_S2x14x48x256x256 main_cst_0
  let main_v6 : IVec S2x14x48x256x256 1 := cmpf .olt main_v4 main_v5
  let main_c_1 : IVec S_ 1 := constantI S_ 1 1#1
  let main_v7 : IVec S_ 1 := (fun x v => Host.reduce IntOp.andi x v reducesTo_S2x14x48x256x256_S_d0_1_2_3_4 h_S_) main_v6 main_c_1
  let main_v8 : IVec S_ 1 := andi main_v3 main_v7
  main_v8
-- ==== Kernel.lean ====
abbrev S2x14x48x256x256 : Shape := ⟨5, ![2, 14, 48, 256, 256]⟩
abbrev S2x48x256x256 : Shape := ⟨4, ![2, 48, 256, 256]⟩
abbrev S2x2x13 : Shape := ⟨3, ![2, 2, 13]⟩
abbrev S2x14x1x128x256 : Shape := ⟨5, ![2, 14, 1, 128, 256]⟩
abbrev S2x1x128x256 : Shape := ⟨4, ![2, 1, 128, 256]⟩
abbrev S1x2x13 : Shape := ⟨3, ![1, 2, 13]⟩
abbrev S2x13 : Shape := ⟨2, ![2, 13]⟩
abbrev S2x13x1x128x256 : Shape := ⟨5, ![2, 13, 1, 128, 256]⟩
abbrev S2x13x128x256 : Shape := ⟨4, ![2, 13, 128, 256]⟩
abbrev S2x128x256 : Shape := ⟨3, ![2, 128, 256]⟩
abbrev S1x13x1x1 : Shape := ⟨4, ![1, 13, 1, 1]⟩
abbrev S_ : Shape := ⟨0, ![]⟩
abbrev S2 : Shape := ⟨1, ![2]⟩

abbrev nBuf : Space → Nat
  | .hbm => 52
  | .vmem => 16
  | .smem => 0
  | _ => 0

abbrev bufTy : (tb : Table) → Fin (tcTables nBuf tb) → BufTy
  | .hbm, ⟨0, _⟩ => ⟨S2x14x48x256x256, .f32⟩
  | .hbm, ⟨1, _⟩ => ⟨S2x14x48x256x256, .f32⟩
  | .hbm, ⟨2, _⟩ => ⟨S2x48x256x256, .i32⟩
  | .hbm, ⟨3, _⟩ => ⟨S2x2x13, .f32⟩
  | .hbm, ⟨4, _⟩ => ⟨S2x2x13, .f32⟩
  | .hbm, ⟨5, _⟩ => ⟨S2x2x13, .f32⟩
  | .hbm, ⟨6, _⟩ => ⟨S2x2x13, .f32⟩
  | .hbm, ⟨7, _⟩ => ⟨S2x2x13, .f32⟩
  | .hbm, ⟨8, _⟩ => ⟨S_, .f32⟩
  | .hbm, ⟨9, _⟩ => ⟨S2x13, .f32⟩
  | .hbm, ⟨10, _⟩ => ⟨S_, .f32⟩
  | .hbm, ⟨11, _⟩ => ⟨S2x13, .f32⟩
  | .hbm, ⟨12, _⟩ => ⟨S_, .f32⟩
  | .hbm, ⟨13, _⟩ => ⟨S2x13, .f32⟩
  | .hbm, ⟨14, _⟩ => ⟨S_, .f32⟩
  | .hbm, ⟨15, _⟩ => ⟨S2x13, .f32⟩
  | .hbm, ⟨16, _⟩ => ⟨S_, .f32⟩
  | .hbm, ⟨17, _⟩ => ⟨S2x13, .f32⟩
  | .hbm, ⟨18, _⟩ => ⟨S_, .f32⟩
  | .hbm, ⟨19, _⟩ => ⟨S2x13, .f32⟩
  | .hbm, ⟨20, _⟩ => ⟨S2x13, .f32⟩
  | .hbm, ⟨21, _⟩ => ⟨S2x13, .f32⟩
  | .hbm, ⟨22, _⟩ => ⟨S_, .f32⟩
  | .hbm, ⟨23, _⟩ => ⟨S2x13, .f32⟩
  | .hbm, ⟨24, _⟩ => ⟨S2x13, .f32⟩
  | .hbm, ⟨25, _⟩ => ⟨S2x13, .f32⟩
  | .hbm, ⟨26, _⟩ => ⟨S_, .f32⟩
  | .hbm, ⟨27, _⟩ => ⟨S2x13, .f32⟩
  | .hbm, ⟨28, _⟩ => ⟨S2x13, .f32⟩
  | .hbm, ⟨29, _⟩ => ⟨S2x13, .f32⟩
  | .hbm, ⟨30, _⟩ => ⟨S_, .f32⟩
  | .hbm, ⟨31, _⟩ => ⟨S2x13, .f32⟩
  | .hbm, ⟨32, _⟩ => ⟨S2x13, .f32⟩
  | .hbm, ⟨33, _⟩ => ⟨S2x13, .f32⟩
  | .hbm, ⟨34, _⟩ => ⟨S_, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S2, .f32⟩
  | .hbm, ⟨39, _⟩ => ⟨S_, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S2, .f32⟩
  | .hbm, ⟨45, _⟩ => ⟨S_, .f32⟩
  | .hbm, ⟨46, _⟩ => ⟨S2, .f32⟩
  | .hbm, ⟨47, _⟩ => ⟨S2, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S2x14x1x128x256, .f32⟩
  | .local _ .vmem, ⟨1, _⟩ => ⟨S2x14x1x128x256, .f32⟩
  | .local _ .vmem, ⟨2, _⟩ => ⟨S2x14x1x128x256, .f32⟩
  | .local _ .vmem, ⟨3, _⟩ => ⟨S2x14x1x128x256, .f32⟩
  | .local _ .vmem, ⟨4, _⟩ => ⟨S2x1x128x256, .i32⟩
  | .local _ .vmem, ⟨5, _⟩ => ⟨S2x1x128x256, .i32⟩
  | .local _ .vmem, ⟨6, _⟩ => ⟨S1x2x13, .f32⟩
  | .local _ .vmem, ⟨7, _⟩ => ⟨S1x2x13, .f32⟩
  | .local _ .vmem, ⟨8, _⟩ => ⟨S1x2x13, .f32⟩
  | .local _ .vmem, ⟨9, _⟩ => ⟨S1x2x13, .f32⟩
  | .local _ .vmem, ⟨10, _⟩ => ⟨S1x2x13, .f32⟩
  | .local _ .vmem, ⟨11, _⟩ => ⟨S1x2x13, .f32⟩
  | .local _ .vmem, ⟨12, _⟩ => ⟨S1x2x13, .f32⟩
  | .local _ .vmem, ⟨13, _⟩ => ⟨S1x2x13, .f32⟩
  | .local _ .vmem, ⟨14, _⟩ => ⟨S1x2x13, .f32⟩
  | .local _ .vmem, ⟨15, _⟩ => ⟨S1x2x13, .f32⟩
  | _, _ => ⟨S2x14x48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_cst_11 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_12 : Ref sig .tc := ⟨.hbm, 45, rfl⟩
abbrev main_v25 : Ref sig .tc := ⟨.hbm, 46, rfl⟩
abbrev main_v26 : Ref sig .tc := ⟨.hbm, 47, rfl⟩
abbrev main_cst_13 : Ref sig .tc := ⟨.hbm, 48, rfl⟩
abbrev main_v27 : Ref sig .tc := ⟨.hbm, 49, rfl⟩
abbrev main_cst_14 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 24, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, arg2.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, arg2.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![c0_i32.toNat, v1.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x14x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x14x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x1x128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2x13 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2x13 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2x13 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2x13 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

class Facts₀ : Prop where
  inb_S1x2x13_S1x2x13_0_0_0 : ∀ a, (![0, 0, 0] : Fin 3 → Nat) a + S1x2x13.size a ≤ S1x2x13.size a
  h_S1x2x13 : 0 < S1x2x13.numel
  shapeCasts_S1x2x13_S2x13 : S1x2x13.ShapeCasts S2x13
  shapeCasts_S2x13_S1x2x13 : S2x13.ShapeCasts S1x2x13
  inb_S2x14x1x128x256_S2x13x1x128x256_0_1_0_0_0 : ∀ a, (![0, 1, 0, 0, 0] : Fin 5 → Nat) a + S2x13x1x128x256.size a ≤ S2x14x1x128x256.size a
  h_S2x13x1x128x256 : 0 < S2x13x1x128x256.numel
  shapeCasts_S2x13x1x128x256_S2x13x128x256 : S2x13x1x128x256.ShapeCasts S2x13x128x256
  inb_S2x1x128x256_S2x1x128x256_0_0_0_0 : ∀ a, (![0, 0, 0, 0] : Fin 4 → Nat) a + S2x1x128x256.size a ≤ S2x1x128x256.size a
  h_S2x1x128x256 : 0 < S2x1x128x256.numel
  shapeCasts_S2x1x128x256_S2x128x256 : S2x1x128x256.ShapeCasts S2x128x256
  iota_S1x13x1x1_d1_w32 : S1x13x1x1.Iotas .tc 32 [1]
  shapeCasts_S2x128x256_S2x1x128x256 : S2x128x256.ShapeCasts S2x1x128x256
  broadcasts_S2x1x128x256_S2x13x128x256 : S2x1x128x256.Broadcasts S2x13x128x256
  broadcasts_S1x13x1x1_S2x13x128x256 : S1x13x1x1.Broadcasts S2x13x128x256
  natLt_1_32 : 1 < 32
  reduces_S2x13x128x256_S2x13 : S2x13x128x256.Reduces [2, 3] S2x13
  reducesTo_S2x2x13_S2x13_d0 : S2x2x13.ReducesTo [0] S2x13
  h_S_ : 0 < S_.numel
  bcast_S_S2x13 : S_.BroadcastsInDim S2x13 (![] : Fin 0 → Fin S2x13.rank)
  reducesTo_S2x13_S2_d1 : S2x13.ReducesTo [1] S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x14x1x128x256.size a ≤ S2x14x48x256x256.size a
  hwx0_0 : ∀ i : grid0.Coords, EltTy.bits .f32 = 32 ∨ (Rect.block (s := S2x14x48x256x256) S2x14x1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x14x1x128x256.size a ≤ S2x14x48x256x256.size a
  hwx0_1 : ∀ i : grid0.Coords, EltTy.bits .f32 = 32 ∨ (Rect.block (s := S2x14x48x256x256) S2x14x1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128x256.size a ≤ S2x48x256x256.size a
  hwx0_2 : ∀ i : grid0.Coords, EltTy.bits .i32 = 32 ∨ (Rect.block (s := S2x48x256x256) S2x1x128x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x13.size a ≤ S2x2x13.size a
  hwx0_3 : ∀ i : grid0.Coords, EltTy.bits .f32 = 32 ∨ (Rect.block (s := S2x2x13) S1x2x13.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x13.size a ≤ S2x2x13.size a
  hwx0_4 : ∀ i : grid0.Coords, EltTy.bits .f32 = 32 ∨ (Rect.block (s := S2x2x13) S1x2x13.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x13.size a ≤ S2x2x13.size a
  hwx0_5 : ∀ i : grid0.Coords, EltTy.bits .f32 = 32 ∨ (Rect.block (s := S2x2x13) S1x2x13.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x13.size a ≤ S2x2x13.size a
  hwx0_6 : ∀ i : grid0.Coords, EltTy.bits .f32 = 32 ∨ (Rect.block (s := S2x2x13) S1x2x13.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x13.size a ≤ S2x2x13.size a
  hwx0_7 : ∀ i : grid0.Coords, EltTy.bits .f32 = 32 ∨ (Rect.block (s := S2x2x13) S1x2x13.size (cc0_transform_7 i) (hinb0_7 i)).WholeWords (EltTy.packing .f32)

variable [Facts₀]

abbrev win0_0 : Pipeline.Window sig grid0 :=
  Pipeline.Window.ofSpec (Memref.whole main_arg0) S2x14x1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x14x1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2x13.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2x13.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2x13.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x2x13.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x2x13.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x14x48x256x256 : Shape := ⟨5, ![2, 14, 48, 256, 256]⟩
abbrev S2x48x256x256 : Shape := ⟨4, ![2, 48, 256, 256]⟩
abbrev S13 : Shape := ⟨1, ![13]⟩
abbrev S_ : Shape := ⟨0, ![]⟩
abbrev S2x1x48x256x256 : Shape := ⟨5, ![2, 1, 48, 256, 256]⟩
abbrev S1x13x1x1x1 : Shape := ⟨5, ![1, 13, 1, 1, 1]⟩
abbrev S2x13x48x256x256 : Shape := ⟨5, ![2, 13, 48, 256, 256]⟩
abbrev S2x13 : Shape := ⟨2, ![2, 13]⟩
abbrev S2 : Shape := ⟨1, ![2]⟩

abbrev nBuf : Space → Nat
  | .hbm => 65
  | .vmem => 0
  | .smem => 0
  | _ => 0

abbrev bufTy : (tb : Table) → Fin (tcTables nBuf tb) → BufTy
  | .hbm, ⟨0, _⟩ => ⟨S2x14x48x256x256, .f32⟩
  | .hbm, ⟨1, _⟩ => ⟨S2x14x48x256x256, .f32⟩
  | .hbm, ⟨2, _⟩ => ⟨S2x48x256x256, .i32⟩
  | .hbm, ⟨3, _⟩ => ⟨S13, .i32⟩
  | .hbm, ⟨4, _⟩ => ⟨S_, .i32⟩
  | .hbm, ⟨5, _⟩ => ⟨S13, .i32⟩
  | .hbm, ⟨6, _⟩ => ⟨S13, .i32⟩
  | .hbm, ⟨7, _⟩ => ⟨S2x1x48x256x256, .i32⟩
  | .hbm, ⟨8, _⟩ => ⟨S1x13x1x1x1, .i32⟩
  | .hbm, ⟨9, _⟩ => ⟨S2x13x48x256x256, .i32⟩
  | .hbm, ⟨10, _⟩ => ⟨S2x13x48x256x256, .i32⟩
  | .hbm, ⟨11, _⟩ => ⟨S2x13x48x256x256, .i1⟩
  | .hbm, ⟨12, _⟩ => ⟨S2x13x48x256x256, .f32⟩
  | .hbm, ⟨13, _⟩ => ⟨S2x13x48x256x256, .f32⟩
  | .hbm, ⟨14, _⟩ => ⟨S2x13x48x256x256, .f32⟩
  | .hbm, ⟨15, _⟩ => ⟨S_, .f32⟩
  | .hbm, ⟨16, _⟩ => ⟨S2x13, .f32⟩
  | .hbm, ⟨17, _⟩ => ⟨S2x13x48x256x256, .f32⟩
  | .hbm, ⟨18, _⟩ => ⟨S_, .f32⟩
  | .hbm, ⟨19, _⟩ => ⟨S2x13, .f32⟩
  | .hbm, ⟨20, _⟩ => ⟨S_, .f32⟩
  | .hbm, ⟨21, _⟩ => ⟨S2x13, .f32⟩
  | .hbm, ⟨22, _⟩ => ⟨S_, .f32⟩
  | .hbm, ⟨23, _⟩ => ⟨S2x13, .f32⟩
  | .hbm, ⟨24, _⟩ => ⟨S2x13, .f32⟩
  | .hbm, ⟨25, _⟩ => ⟨S2x13, .f32⟩
  | .hbm, ⟨26, _⟩ => ⟨S_, .f32⟩
  | .hbm, ⟨27, _⟩ => ⟨S2x13, .f32⟩
  | .hbm, ⟨28, _⟩ => ⟨S2x13, .f32⟩
  | .hbm, ⟨29, _⟩ => ⟨S2x13, .f32⟩
  | .hbm, ⟨30, _⟩ => ⟨S_, .f32⟩
  | .hbm, ⟨31, _⟩ => ⟨S2, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S2x13x48x256x256, .f32⟩
  | .hbm, ⟨36, _⟩ => ⟨S2x13x48x256x256, .f32⟩
  | .hbm, ⟨37, _⟩ => ⟨S_, .f32⟩
  | .hbm, ⟨38, _⟩ => ⟨S2x13, .f32⟩
  | .hbm, ⟨39, _⟩ => ⟨S2x13x48x256x256, .f32⟩
  | .hbm, ⟨40, _⟩ => ⟨S_, .f32⟩
  | .hbm, ⟨41, _⟩ => ⟨S2x13, .f32⟩
  | .hbm, ⟨42, _⟩ => ⟨S_, .f32⟩
  | .hbm, ⟨43, _⟩ => ⟨S2x13, .f32⟩
  | .hbm, ⟨44, _⟩ => ⟨S_, .f32⟩
  | .hbm, ⟨45, _⟩ => ⟨S2x13, .f32⟩
  | .hbm, ⟨46, _⟩ => ⟨S2x13, .f32⟩
  | .hbm, ⟨47, _⟩ => ⟨S2x13, .f32⟩
  | .hbm, ⟨48, _⟩ => ⟨S_, .f32⟩
  | .hbm, ⟨49, _⟩ => ⟨S2x13, .f32⟩
  | .hbm, ⟨50, _⟩ => ⟨S2x13, .f32⟩
  | .hbm, ⟨51, _⟩ => ⟨S2x13, .f32⟩
  | .hbm, ⟨52, _⟩ => ⟨S_, .f32⟩
  | .hbm, ⟨53, _⟩ => ⟨S2, .f32⟩
  | .hbm, ⟨54, _⟩ => ⟨S_, .f32⟩
  | .hbm, ⟨55, _⟩ => ⟨S2, .f32⟩
  | .hbm, ⟨56, _⟩ => ⟨S2, .f32⟩
  | .hbm, ⟨57, _⟩ => ⟨S2, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S2x14x48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S13 : S_.BroadcastsInDim S13 (![] : Fin 0 → Fin S13.rank)
  bcast_S2x48x256x256_S2x1x48x256x256_0_2_3_4 : S2x48x256x256.BroadcastsInDim S2x1x48x256x256 (![0, 2, 3, 4] : Fin 4 → Fin S2x1x48x256x256.rank)
  bcast_S13_S1x13x1x1x1_1 : S13.BroadcastsInDim S1x13x1x1x1 (![1] : Fin 1 → Fin S1x13x1x1x1.rank)
  bcast_S2x1x48x256x256_S2x13x48x256x256_0_1_2_3_4 : S2x1x48x256x256.BroadcastsInDim S2x13x48x256x256 (![0, 1, 2, 3, 4] : Fin 5 → Fin S2x13x48x256x256.rank)
  bcast_S1x13x1x1x1_S2x13x48x256x256_0_1_2_3_4 : S1x13x1x1x1.BroadcastsInDim S2x13x48x256x256 (![0, 1, 2, 3, 4] : Fin 5 → Fin S2x13x48x256x256.rank)
  slices_S2x14x48x256x256_S2x13x48x256x256_0_1_0_0_0 : S2x14x48x256x256.Slices ![0, 1, 0, 0, 0] S2x13x48x256x256
  reducesTo_S2x13x48x256x256_S2x13_d2_3_4 : S2x13x48x256x256.ReducesTo [2, 3, 4] S2x13
  h_S_ : 0 < S_.numel
  bcast_S_S2x13 : S_.BroadcastsInDim S2x13 (![] : Fin 0 → Fin S2x13.rank)
  reducesTo_S2x13_S2_d1 : S2x13.ReducesTo [1] S2
  bcast_S_S2 : S_.BroadcastsInDim S2 (![] : Fin 0 → Fin S2.rank)
  reducesTo_S2_S_d0 : S2.ReducesTo [0] S_

variable [Facts₀]

class Facts : Prop extends Facts₀ where

variable [Facts]
-- ==== Proof.KernelFinal.lean ====
/-
  Which steps write the five output arrays back, and what the arrays hold after the region: each array has two rows
  (one per run of 48 steps); row `cc` is written back once, after step `48 cc + 47`, from the staging buffer, so it
  holds what that step left there.
-/
import proofs.«141704_j80470507258049_1_alg».proof.Proof.Gen.KernelIdeal.Frame
import Idealize.ShloMosaic.Lib.Pipeline.Value
import Idealize.ShloMosaic.Lib.ValueIdx

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The last step of run `cc` is a step of the grid. -/
theorem lastOfRun_lt (cc : Fin 2) : 48 * cc.val + 47 < cfg0.N := by
  have := cc.isLt; rw [show cfg0.N = 96 from N_0]; omega

/-- The staged contents depend on the step's number only, not on the proof that it is a step of the grid. -/
theorem outsAt0_congr (c : Dev nD) (n : ℕ) (h : n < cfg0.N) (n' : ℕ) (h' : n' < cfg0.N) (e : n = n') :
    outsAt0 m c n h = outsAt0 m c n' h' := by
  subst e; rfl

/-- Output 0's array after the region, named: row `cc` is what the last step of run `cc` left staged. -/
def rows3 (c : Dev nD) : Buf (Elt F) ((c : Thread nD τ).loc main_v0_0) := fun i =>
  (outsAt0 m c (48 * (i 0).val + 47) (lastOfRun_lt (i 0))).1 (ix3 0 (i 1) (i 2))

/-- Output 0's block at step t is row t / 48 of its array, whole on the other two axes. -/
theorem idx3 : ∀ t : Fin cfg0.N, win0_3.index t 0 = t.val / 48 ∧ win0_3.index t 1 = 0 ∧ win0_3.index t 2 = 0 :=
  (by decide +kernel : ∀ t : Fin grid0.N, win0_3.index t 0 = t.val / 48 ∧ win0_3.index t 1 = 0 ∧ win0_3.index t 2 = 0)

/-- What a write-back step t (t ≡ 47 mod 48) writes is row t / 48 of rows3: entry (0, b, o) of the block sits at
    (t / 48, b, o) of the array, and 48 (t / 48) + 47 = t, so both sides read the staging buffer after step t. -/
theorem flushed3_eq (c : Dev nD) (t : Fin cfg0.N) (hf : (cfg0.win 3).flush t = true) :
    (dats m 0 c).flushed 3 t = ((cfg0.win 3).blk t).view.read (Elt F) (rows3 m c) := by
  have h47 : t.val % 48 = 47 := (flush0_3 t).mp hf
  obtain ⟨e0, e1, e2⟩ := idx3 t
  show (cfg0.win 3).cut (grid0.coords t) ((dats m 0 c).after 3 t) = _
  rw [after0_3]
  funext y
  show (outsAt0 m c t.val t.isLt).1 (win0_3.xinj (grid0.coords t) y) = rows3 m c ((win0_3.rect t).emb y)
  have k0 : (((win0_3.rect t).emb y) 0 : Nat) = win0_3.index t 0 * win0_3.size 0 + y 0 := win0_3.rect_emb_val t y 0
  have k1 : (((win0_3.rect t).emb y) 1 : Nat) = win0_3.index t 1 * win0_3.size 1 + y 1 := win0_3.rect_emb_val t y 1
  have k2 : (((win0_3.rect t).emb y) 2 : Nat) = win0_3.index t 2 * win0_3.size 2 + y 2 := win0_3.rect_emb_val t y 2
  have hy0 : (y 0 : Nat) < 1 := (y 0).isLt
  rw [e0, show win0_3.size 0 = 1 from rfl] at k0
  rw [e1, Nat.zero_mul, Nat.zero_add] at k1
  rw [e2, Nat.zero_mul, Nat.zero_add] at k2
  have hn : 48 * (((win0_3.rect t).emb y) 0 : Nat) + 47 = t.val := by omega
  unfold rows3
  rw [outsAt0_congr m c _ (lastOfRun_lt _) t.val t.isLt hn]
  refine congrArg _ ?_
  funext a
  apply Fin.ext
  match a with
  | ⟨0, _⟩ => show (y 0 : Nat) = 0; omega
  | ⟨1, _⟩ => show (y 1 : Nat) = (((win0_3.rect t).emb y) 1 : Nat); omega
  | ⟨2, _⟩ => show (y 2 : Nat) = (((win0_3.rect t).emb y) 2 : Nat); omega

/-- Every entry (cc, b, o) of output 0's array lies in the block written back after step 48 cc + 47: that block is
    row (48 cc + 47) / 48 = cc, whole on the other two axes. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 2 := (i 0).isLt
  have hi1 : (i 1 : Nat) < 2 := (i 1).isLt
  have hi2 : (i 2 : Nat) < 13 := (i 2).isLt
  have hN : cfg0.N = 96 := N_0
  have hlt : 48 * (i 0 : Nat) + 47 < cfg0.N := by omega
  obtain ⟨e0, e1, e2⟩ := idx3 ⟨48 * (i 0 : Nat) + 47, hlt⟩
  have e0' : win0_3.index ⟨48 * (i 0 : Nat) + 47, hlt⟩ 0 = (48 * (i 0 : Nat) + 47) / 48 := e0
  refine ⟨⟨48 * (i 0 : Nat) + 47, hlt⟩, (flush0_3 _).mpr (by show (48 * (i 0 : Nat) + 47) % 48 = 47; omega), ?_⟩
  show i ∈ ((View.whole main_v0_0).slice (win0_3.rect ⟨48 * (i 0 : Nat) + 47, hlt⟩)).set
  rw [View.set_slice_whole, Rect.mem_set_unit]
  intro a
  match a with
  | ⟨0, _⟩ =>
    show win0_3.index ⟨48 * (i 0 : Nat) + 47, hlt⟩ 0 * 1 ≤ (i 0 : Nat) ∧ (i 0 : Nat) < win0_3.index ⟨48 * (i 0 : Nat) + 47, hlt⟩ 0 * 1 + 1
    rw [e0']; omega
  | ⟨1, _⟩ =>
    show win0_3.index ⟨48 * (i 0 : Nat) + 47, hlt⟩ 1 * 2 ≤ (i 1 : Nat) ∧ (i 1 : Nat) < win0_3.index ⟨48 * (i 0 : Nat) + 47, hlt⟩ 1 * 2 + 2
    rw [e1]; omega
  | ⟨2, _⟩ =>
    show win0_3.index ⟨48 * (i 0 : Nat) + 47, hlt⟩ 2 * 13 ≤ (i 2 : Nat) ∧ (i 2 : Nat) < win0_3.index ⟨48 * (i 0 : Nat) + 47, hlt⟩ 2 * 13 + 13
    rw [e2]; omega

/-- The write-backs cover the array and each writes its row of rows3, so the array ends holding rows3. -/
theorem final3 (c : Dev nD) : (dats m 0 c).arrAt 3 cfg0.N = rows3 m c :=
  (dats m 0 c).arrAt_eq_of_cover 3 (rows3 m c) (flushed3_eq m c) (cover3 c)

/-- Output 1's array after the region, named: row `cc` is what the last step of run `cc` left staged. -/
def rows4 (c : Dev nD) : Buf (Elt F) ((c : Thread nD τ).loc main_v0_1) := fun i =>
  (outsAt0 m c (48 * (i 0).val + 47) (lastOfRun_lt (i 0))).2.1 (ix3 0 (i 1) (i 2))

/-- Output 1's block at step t is row t / 48 of its array, whole on the other two axes. -/
theorem idx4 : ∀ t : Fin cfg0.N, win0_4.index t 0 = t.val / 48 ∧ win0_4.index t 1 = 0 ∧ win0_4.index t 2 = 0 :=
  (by decide +kernel : ∀ t : Fin grid0.N, win0_4.index t 0 = t.val / 48 ∧ win0_4.index t 1 = 0 ∧ win0_4.index t 2 = 0)

/-- What a write-back step t (t ≡ 47 mod 48) writes is row t / 48 of rows4: entry (0, b, o) of the block sits at
    (t / 48, b, o) of the array, and 48 (t / 48) + 47 = t, so both sides read the staging buffer after step t. -/
theorem flushed4_eq (c : Dev nD) (t : Fin cfg0.N) (hf : (cfg0.win 4).flush t = true) :
    (dats m 0 c).flushed 4 t = ((cfg0.win 4).blk t).view.read (Elt F) (rows4 m c) := by
  have h47 : t.val % 48 = 47 := (flush0_4 t).mp hf
  obtain ⟨e0, e1, e2⟩ := idx4 t
  show (cfg0.win 4).cut (grid0.coords t) ((dats m 0 c).after 4 t) = _
  rw [after0_4]
  funext y
  show (outsAt0 m c t.val t.isLt).2.1 (win0_4.xinj (grid0.coords t) y) = rows4 m c ((win0_4.rect t).emb y)
  have k0 : (((win0_4.rect t).emb y) 0 : Nat) = win0_4.index t 0 * win0_4.size 0 + y 0 := win0_4.rect_emb_val t y 0
  have k1 : (((win0_4.rect t).emb y) 1 : Nat) = win0_4.index t 1 * win0_4.size 1 + y 1 := win0_4.rect_emb_val t y 1
  have k2 : (((win0_4.rect t).emb y) 2 : Nat) = win0_4.index t 2 * win0_4.size 2 + y 2 := win0_4.rect_emb_val t y 2
  have hy0 : (y 0 : Nat) < 1 := (y 0).isLt
  rw [e0, show win0_4.size 0 = 1 from rfl] at k0
  rw [e1, Nat.zero_mul, Nat.zero_add] at k1
  rw [e2, Nat.zero_mul, Nat.zero_add] at k2
  have hn : 48 * (((win0_4.rect t).emb y) 0 : Nat) + 47 = t.val := by omega
  unfold rows4
  rw [outsAt0_congr m c _ (lastOfRun_lt _) t.val t.isLt hn]
  refine congrArg _ ?_
  funext a
  apply Fin.ext
  match a with
  | ⟨0, _⟩ => show (y 0 : Nat) = 0; omega
  | ⟨1, _⟩ => show (y 1 : Nat) = (((win0_4.rect t).emb y) 1 : Nat); omega
  | ⟨2, _⟩ => show (y 2 : Nat) = (((win0_4.rect t).emb y) 2 : Nat); omega

/-- Every entry (cc, b, o) of output 1's array lies in the block written back after step 48 cc + 47: that block is
    row (48 cc + 47) / 48 = cc, whole on the other two axes. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0 : Nat) < 2 := (i 0).isLt
  have hi1 : (i 1 : Nat) < 2 := (i 1).isLt
  have hi2 : (i 2 : Nat) < 13 := (i 2).isLt
  have hN : cfg0.N = 96 := N_0
  have hlt : 48 * (i 0 : Nat) + 47 < cfg0.N := by omega
  obtain ⟨e0, e1, e2⟩ := idx4 ⟨48 * (i 0 : Nat) + 47, hlt⟩
  have e0' : win0_4.index ⟨48 * (i 0 : Nat) + 47, hlt⟩ 0 = (48 * (i 0 : Nat) + 47) / 48 := e0
  refine ⟨⟨48 * (i 0 : Nat) + 47, hlt⟩, (flush0_4 _).mpr (by show (48 * (i 0 : Nat) + 47) % 48 = 47; omega), ?_⟩
  show i ∈ ((View.whole main_v0_1).slice (win0_4.rect ⟨48 * (i 0 : Nat) + 47, hlt⟩)).set
  rw [View.set_slice_whole, Rect.mem_set_unit]
  intro a
  match a with
  | ⟨0, _⟩ =>
    show win0_4.index ⟨48 * (i 0 : Nat) + 47, hlt⟩ 0 * 1 ≤ (i 0 : Nat) ∧ (i 0 : Nat) < win0_4.index ⟨48 * (i 0 : Nat) + 47, hlt⟩ 0 * 1 + 1
    rw [e0']; omega
  | ⟨1, _⟩ =>
    show win0_4.index ⟨48 * (i 0 : Nat) + 47, hlt⟩ 1 * 2 ≤ (i 1 : Nat) ∧ (i 1 : Nat) < win0_4.index ⟨48 * (i 0 : Nat) + 47, hlt⟩ 1 * 2 + 2
    rw [e1]; omega
  | ⟨2, _⟩ =>
    show win0_4.index ⟨48 * (i 0 : Nat) + 47, hlt⟩ 2 * 13 ≤ (i 2 : Nat) ∧ (i 2 : Nat) < win0_4.index ⟨48 * (i 0 : Nat) + 47, hlt⟩ 2 * 13 + 13
    rw [e2]; omega

/-- The write-backs cover the array and each writes its row of rows4, so the array ends holding rows4. -/
theorem final4 (c : Dev nD) : (dats m 0 c).arrAt 4 cfg0.N = rows4 m c :=
  (dats m 0 c).arrAt_eq_of_cover 4 (rows4 m c) (flushed4_eq m c) (cover4 c)

/-- Output 2's array after the region, named: row `cc` is what the last step of run `cc` left staged. -/
def rows5 (c : Dev nD) : Buf (Elt F) ((c : Thread nD τ).loc main_v0_2) := fun i =>
  (outsAt0 m c (48 * (i 0).val + 47) (lastOfRun_lt (i 0))).2.2.1 (ix3 0 (i 1) (i 2))

/-- Output 2's block at step t is row t / 48 of its array, whole on the other two axes. -/
theorem idx5 : ∀ t : Fin cfg0.N, win0_5.index t 0 = t.val / 48 ∧ win0_5.index t 1 = 0 ∧ win0_5.index t 2 = 0 :=
  (by decide +kernel : ∀ t : Fin grid0.N, win0_5.index t 0 = t.val / 48 ∧ win0_5.index t 1 = 0 ∧ win0_5.index t 2 = 0)

/-- What a write-back step t (t ≡ 47 mod 48) writes is row t / 48 of rows5: entry (0, b, o) of the block sits at
    (t / 48, b, o) of the array, and 48 (t / 48) + 47 = t, so both sides read the staging buffer after step t. -/
theorem flushed5_eq (c : Dev nD) (t : Fin cfg0.N) (hf : (cfg0.win 5).flush t = true) :
    (dats m 0 c).flushed 5 t = ((cfg0.win 5).blk t).view.read (Elt F) (rows5 m c) := by
  have h47 : t.val % 48 = 47 := (flush0_5 t).mp hf
  obtain ⟨e0, e1, e2⟩ := idx5 t
  show (cfg0.win 5).cut (grid0.coords t) ((dats m 0 c).after 5 t) = _
  rw [after0_5]
  funext y
  show (outsAt0 m c t.val t.isLt).2.2.1 (win0_5.xinj (grid0.coords t) y) = rows5 m c ((win0_5.rect t).emb y)
  have k0 : (((win0_5.rect t).emb y) 0 : Nat) = win0_5.index t 0 * win0_5.size 0 + y 0 := win0_5.rect_emb_val t y 0
  have k1 : (((win0_5.rect t).emb y) 1 : Nat) = win0_5.index t 1 * win0_5.size 1 + y 1 := win0_5.rect_emb_val t y 1
  have k2 : (((win0_5.rect t).emb y) 2 : Nat) = win0_5.index t 2 * win0_5.size 2 + y 2 := win0_5.rect_emb_val t y 2
  have hy0 : (y 0 : Nat) < 1 := (y 0).isLt
  rw [e0, show win0_5.size 0 = 1 from rfl] at k0
  rw [e1, Nat.zero_mul, Nat.zero_add] at k1
  rw [e2, Nat.zero_mul, Nat.zero_add] at k2
  have hn : 48 * (((win0_5.rect t).emb y) 0 : Nat) + 47 = t.val := by omega
  unfold rows5
  rw [outsAt0_congr m c _ (lastOfRun_lt _) t.val t.isLt hn]
  refine congrArg _ ?_
  funext a
  apply Fin.ext
  match a with
  | ⟨0, _⟩ => show (y 0 : Nat) = 0; omega
  | ⟨1, _⟩ => show (y 1 : Nat) = (((win0_5.rect t).emb y) 1 : Nat); omega
  | ⟨2, _⟩ => show (y 2 : Nat) = (((win0_5.rect t).emb y) 2 : Nat); omega

/-- Every entry (cc, b, o) of output 2's array lies in the block written back after step 48 cc + 47: that block is
    row (48 cc + 47) / 48 = cc, whole on the other two axes. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0 : Nat) < 2 := (i 0).isLt
  have hi1 : (i 1 : Nat) < 2 := (i 1).isLt
  have hi2 : (i 2 : Nat) < 13 := (i 2).isLt
  have hN : cfg0.N = 96 := N_0
  have hlt : 48 * (i 0 : Nat) + 47 < cfg0.N := by omega
  obtain ⟨e0, e1, e2⟩ := idx5 ⟨48 * (i 0 : Nat) + 47, hlt⟩
  have e0' : win0_5.index ⟨48 * (i 0 : Nat) + 47, hlt⟩ 0 = (48 * (i 0 : Nat) + 47) / 48 := e0
  refine ⟨⟨48 * (i 0 : Nat) + 47, hlt⟩, (flush0_5 _).mpr (by show (48 * (i 0 : Nat) + 47) % 48 = 47; omega), ?_⟩
  show i ∈ ((View.whole main_v0_2).slice (win0_5.rect ⟨48 * (i 0 : Nat) + 47, hlt⟩)).set
  rw [View.set_slice_whole, Rect.mem_set_unit]
  intro a
  match a with
  | ⟨0, _⟩ =>
    show win0_5.index ⟨48 * (i 0 : Nat) + 47, hlt⟩ 0 * 1 ≤ (i 0 : Nat) ∧ (i 0 : Nat) < win0_5.index ⟨48 * (i 0 : Nat) + 47, hlt⟩ 0 * 1 + 1
    rw [e0']; omega
  | ⟨1, _⟩ =>
    show win0_5.index ⟨48 * (i 0 : Nat) + 47, hlt⟩ 1 * 2 ≤ (i 1 : Nat) ∧ (i 1 : Nat) < win0_5.index ⟨48 * (i 0 : Nat) + 47, hlt⟩ 1 * 2 + 2
    rw [e1]; omega
  | ⟨2, _⟩ =>
    show win0_5.index ⟨48 * (i 0 : Nat) + 47, hlt⟩ 2 * 13 ≤ (i 2 : Nat) ∧ (i 2 : Nat) < win0_5.index ⟨48 * (i 0 : Nat) + 47, hlt⟩ 2 * 13 + 13
    rw [e2]; omega

/-- The write-backs cover the array and each writes its row of rows5, so the array ends holding rows5. -/
theorem final5 (c : Dev nD) : (dats m 0 c).arrAt 5 cfg0.N = rows5 m c :=
  (dats m 0 c).arrAt_eq_of_cover 5 (rows5 m c) (flushed5_eq m c) (cover5 c)

/-- Output 3's array after the region, named: row `cc` is what the last step of run `cc` left staged. -/
def rows6 (c : Dev nD) : Buf (Elt F) ((c : Thread nD τ).loc main_v0_3) := fun i =>
  (outsAt0 m c (48 * (i 0).val + 47) (lastOfRun_lt (i 0))).2.2.2.1 (ix3 0 (i 1) (i 2))

/-- Output 3's block at step t is row t / 48 of its array, whole on the other two axes. -/
theorem idx6 : ∀ t : Fin cfg0.N, win0_6.index t 0 = t.val / 48 ∧ win0_6.index t 1 = 0 ∧ win0_6.index t 2 = 0 :=
  (by decide +kernel : ∀ t : Fin grid0.N, win0_6.index t 0 = t.val / 48 ∧ win0_6.index t 1 = 0 ∧ win0_6.index t 2 = 0)

/-- What a write-back step t (t ≡ 47 mod 48) writes is row t / 48 of rows6: entry (0, b, o) of the block sits at
    (t / 48, b, o) of the array, and 48 (t / 48) + 47 = t, so both sides read the staging buffer after step t. -/
theorem flushed6_eq (c : Dev nD) (t : Fin cfg0.N) (hf : (cfg0.win 6).flush t = true) :
    (dats m 0 c).flushed 6 t = ((cfg0.win 6).blk t).view.read (Elt F) (rows6 m c) := by
  have h47 : t.val % 48 = 47 := (flush0_6 t).mp hf
  obtain ⟨e0, e1, e2⟩ := idx6 t
  show (cfg0.win 6).cut (grid0.coords t) ((dats m 0 c).after 6 t) = _
  rw [after0_6]
  funext y
  show (outsAt0 m c t.val t.isLt).2.2.2.1 (win0_6.xinj (grid0.coords t) y) = rows6 m c ((win0_6.rect t).emb y)
  have k0 : (((win0_6.rect t).emb y) 0 : Nat) = win0_6.index t 0 * win0_6.size 0 + y 0 := win0_6.rect_emb_val t y 0
  have k1 : (((win0_6.rect t).emb y) 1 : Nat) = win0_6.index t 1 * win0_6.size 1 + y 1 := win0_6.rect_emb_val t y 1
  have k2 : (((win0_6.rect t).emb y) 2 : Nat) = win0_6.index t 2 * win0_6.size 2 + y 2 := win0_6.rect_emb_val t y 2
  have hy0 : (y 0 : Nat) < 1 := (y 0).isLt
  rw [e0, show win0_6.size 0 = 1 from rfl] at k0
  rw [e1, Nat.zero_mul, Nat.zero_add] at k1
  rw [e2, Nat.zero_mul, Nat.zero_add] at k2
  have hn : 48 * (((win0_6.rect t).emb y) 0 : Nat) + 47 = t.val := by omega
  unfold rows6
  rw [outsAt0_congr m c _ (lastOfRun_lt _) t.val t.isLt hn]
  refine congrArg _ ?_
  funext a
  apply Fin.ext
  match a with
  | ⟨0, _⟩ => show (y 0 : Nat) = 0; omega
  | ⟨1, _⟩ => show (y 1 : Nat) = (((win0_6.rect t).emb y) 1 : Nat); omega
  | ⟨2, _⟩ => show (y 2 : Nat) = (((win0_6.rect t).emb y) 2 : Nat); omega

/-- Every entry (cc, b, o) of output 3's array lies in the block written back after step 48 cc + 47: that block is
    row (48 cc + 47) / 48 = cc, whole on the other two axes. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0 : Nat) < 2 := (i 0).isLt
  have hi1 : (i 1 : Nat) < 2 := (i 1).isLt
  have hi2 : (i 2 : Nat) < 13 := (i 2).isLt
  have hN : cfg0.N = 96 := N_0
  have hlt : 48 * (i 0 : Nat) + 47 < cfg0.N := by omega
  obtain ⟨e0, e1, e2⟩ := idx6 ⟨48 * (i 0 : Nat) + 47, hlt⟩
  have e0' : win0_6.index ⟨48 * (i 0 : Nat) + 47, hlt⟩ 0 = (48 * (i 0 : Nat) + 47) / 48 := e0
  refine ⟨⟨48 * (i 0 : Nat) + 47, hlt⟩, (flush0_6 _).mpr (by show (48 * (i 0 : Nat) + 47) % 48 = 47; omega), ?_⟩
  show i ∈ ((View.whole main_v0_3).slice (win0_6.rect ⟨48 * (i 0 : Nat) + 47, hlt⟩)).set
  rw [View.set_slice_whole, Rect.mem_set_unit]
  intro a
  match a with
  | ⟨0, _⟩ =>
    show win0_6.index ⟨48 * (i 0 : Nat) + 47, hlt⟩ 0 * 1 ≤ (i 0 : Nat) ∧ (i 0 : Nat) < win0_6.index ⟨48 * (i 0 : Nat) + 47, hlt⟩ 0 * 1 + 1
    rw [e0']; omega
  | ⟨1, _⟩ =>
    show win0_6.index ⟨48 * (i 0 : Nat) + 47, hlt⟩ 1 * 2 ≤ (i 1 : Nat) ∧ (i 1 : Nat) < win0_6.index ⟨48 * (i 0 : Nat) + 47, hlt⟩ 1 * 2 + 2
    rw [e1]; omega
  | ⟨2, _⟩ =>
    show win0_6.index ⟨48 * (i 0 : Nat) + 47, hlt⟩ 2 * 13 ≤ (i 2 : Nat) ∧ (i 2 : Nat) < win0_6.index ⟨48 * (i 0 : Nat) + 47, hlt⟩ 2 * 13 + 13
    rw [e2]; omega

/-- The write-backs cover the array and each writes its row of rows6, so the array ends holding rows6. -/
theorem final6 (c : Dev nD) : (dats m 0 c).arrAt 6 cfg0.N = rows6 m c :=
  (dats m 0 c).arrAt_eq_of_cover 6 (rows6 m c) (flushed6_eq m c) (cover6 c)

/-- Output 4's array after the region, named: row `cc` is what the last step of run `cc` left staged. -/
def rows7 (c : Dev nD) : Buf (Elt F) ((c : Thread nD τ).loc main_v0_4) := fun i =>
  (outsAt0 m c (48 * (i 0).val + 47) (lastOfRun_lt (i 0))).2.2.2.2 (ix3 0 (i 1) (i 2))

/-- Output 4's block at step t is row t / 48 of its array, whole on the other two axes. -/
theorem idx7 : ∀ t : Fin cfg0.N, win0_7.index t 0 = t.val / 48 ∧ win0_7.index t 1 = 0 ∧ win0_7.index t 2 = 0 :=
  (by decide +kernel : ∀ t : Fin grid0.N, win0_7.index t 0 = t.val / 48 ∧ win0_7.index t 1 = 0 ∧ win0_7.index t 2 = 0)

/-- What a write-back step t (t ≡ 47 mod 48) writes is row t / 48 of rows7: entry (0, b, o) of the block sits at
    (t / 48, b, o) of the array, and 48 (t / 48) + 47 = t, so both sides read the staging buffer after step t. -/
theorem flushed7_eq (c : Dev nD) (t : Fin cfg0.N) (hf : (cfg0.win 7).flush t = true) :
    (dats m 0 c).flushed 7 t = ((cfg0.win 7).blk t).view.read (Elt F) (rows7 m c) := by
  have h47 : t.val % 48 = 47 := (flush0_7 t).mp hf
  obtain ⟨e0, e1, e2⟩ := idx7 t
  show (cfg0.win 7).cut (grid0.coords t) ((dats m 0 c).after 7 t) = _
  rw [after0_7]
  funext y
  show (outsAt0 m c t.val t.isLt).2.2.2.2 (win0_7.xinj (grid0.coords t) y) = rows7 m c ((win0_7.rect t).emb y)
  have k0 : (((win0_7.rect t).emb y) 0 : Nat) = win0_7.index t 0 * win0_7.size 0 + y 0 := win0_7.rect_emb_val t y 0
  have k1 : (((win0_7.rect t).emb y) 1 : Nat) = win0_7.index t 1 * win0_7.size 1 + y 1 := win0_7.rect_emb_val t y 1
  have k2 : (((win0_7.rect t).emb y) 2 : Nat) = win0_7.index t 2 * win0_7.size 2 + y 2 := win0_7.rect_emb_val t y 2
  have hy0 : (y 0 : Nat) < 1 := (y 0).isLt
  rw [e0, show win0_7.size 0 = 1 from rfl] at k0
  rw [e1, Nat.zero_mul, Nat.zero_add] at k1
  rw [e2, Nat.zero_mul, Nat.zero_add] at k2
  have hn : 48 * (((win0_7.rect t).emb y) 0 : Nat) + 47 = t.val := by omega
  unfold rows7
  rw [outsAt0_congr m c _ (lastOfRun_lt _) t.val t.isLt hn]
  refine congrArg _ ?_
  funext a
  apply Fin.ext
  match a with
  | ⟨0, _⟩ => show (y 0 : Nat) = 0; omega
  | ⟨1, _⟩ => show (y 1 : Nat) = (((win0_7.rect t).emb y) 1 : Nat); omega
  | ⟨2, _⟩ => show (y 2 : Nat) = (((win0_7.rect t).emb y) 2 : Nat); omega

/-- Every entry (cc, b, o) of output 4's array lies in the block written back after step 48 cc + 47: that block is
    row (48 cc + 47) / 48 = cc, whole on the other two axes. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0 : Nat) < 2 := (i 0).isLt
  have hi1 : (i 1 : Nat) < 2 := (i 1).isLt
  have hi2 : (i 2 : Nat) < 13 := (i 2).isLt
  have hN : cfg0.N = 96 := N_0
  have hlt : 48 * (i 0 : Nat) + 47 < cfg0.N := by omega
  obtain ⟨e0, e1, e2⟩ := idx7 ⟨48 * (i 0 : Nat) + 47, hlt⟩
  have e0' : win0_7.index ⟨48 * (i 0 : Nat) + 47, hlt⟩ 0 = (48 * (i 0 : Nat) + 47) / 48 := e0
  refine ⟨⟨48 * (i 0 : Nat) + 47, hlt⟩, (flush0_7 _).mpr (by show (48 * (i 0 : Nat) + 47) % 48 = 47; omega), ?_⟩
  show i ∈ ((View.whole main_v0_4).slice (win0_7.rect ⟨48 * (i 0 : Nat) + 47, hlt⟩)).set
  rw [View.set_slice_whole, Rect.mem_set_unit]
  intro a
  match a with
  | ⟨0, _⟩ =>
    show win0_7.index ⟨48 * (i 0 : Nat) + 47, hlt⟩ 0 * 1 ≤ (i 0 : Nat) ∧ (i 0 : Nat) < win0_7.index ⟨48 * (i 0 : Nat) + 47, hlt⟩ 0 * 1 + 1
    rw [e0']; omega
  | ⟨1, _⟩ =>
    show win0_7.index ⟨48 * (i 0 : Nat) + 47, hlt⟩ 1 * 2 ≤ (i 1 : Nat) ∧ (i 1 : Nat) < win0_7.index ⟨48 * (i 0 : Nat) + 47, hlt⟩ 1 * 2 + 2
    rw [e1]; omega
  | ⟨2, _⟩ =>
    show win0_7.index ⟨48 * (i 0 : Nat) + 47, hlt⟩ 2 * 13 ≤ (i 2 : Nat) ∧ (i 2 : Nat) < win0_7.index ⟨48 * (i 0 : Nat) + 47, hlt⟩ 2 * 13 + 13
    rw [e2]; omega

/-- The write-backs cover the array and each writes its row of rows7, so the array ends holding rows7. -/
theorem final7 (c : Dev nD) : (dats m 0 c).arrAt 7 cfg0.N = rows7 m c :=
  (dats m 0 c).arrAt_eq_of_cover 7 (rows7 m c) (flushed7_eq m c) (cover7 c)

end Cert.KernelIdeal.Final

end
-- ==== Proof.Spec.lean ====
/-
  The dice loss's five reduction sums, stated once over literal shapes, with no reference to any program.

  The inputs are two prediction arrays `x : [2, 14, 48, 256, 256]` (batch, channel, depth, height, width) of
  extended reals and an integer label array `y : [2, 48, 256, 256]`. Organ `o` of 13 is label `o + 1` and
  prediction channel `o + 1`. For batch `b` and organ `o`:

    sumProd x y (b, o) = Σ over (d, h, w) of  x[b, o+1, d, h, w] · [y[b, d, h, w] = o + 1]
    sumSq   x   (b, o) = Σ over (d, h, w) of  x[b, o+1, d, h, w]²
    sumHot    y (b, o) = Σ over (d, h, w) of  [y[b, d, h, w] = o + 1]

  where `[·]` is 1 or 0. Both spellings of that indicator that the two programs use — an unsigned conversion of
  the one-bit comparison, and a signed conversion of its zero-extension to 32 bits — are this indicator.
-/
import Idealize.ShloMosaic.Lib.ValueIdx
import Idealize.ShloMosaic.PureOps.Ideal.Laws

noncomputable section

namespace Cert.Dice

open Idealize.ShloMosaic Idealize.ShloMosaic.ValueIdx

/-- Predictions: batch × channel × depth × height × width. -/
abbrev SPred : Shape := ⟨5, ![2, 14, 48, 256, 256]⟩
/-- Labels: batch × depth × height × width. -/
abbrev SLab : Shape := ⟨4, ![2, 48, 256, 256]⟩
/-- A per-(batch, organ) table. -/
abbrev SOrg : Shape := ⟨2, ![2, 13]⟩

/-- Organ `o`'s prediction channel, `o + 1`. -/
def chan (o : Fin 13) : Fin 14 := ⟨1 + o.val, by have := o.isLt; omega⟩

@[simp] theorem chan_val (o : Fin 13) : (chan o).val = 1 + o.val := rfl

/-- The indicator that label word `t` is organ `o`'s label `o + 1`, as an extended real. -/
def hotWord (t : BitVec 32) (o : Fin 13) : EReal := if t = BitVec.ofNat 32 (o.val + 1) then 1 else 0

/-- Organ `o`'s label word, spelt as the host does (`1 + o`) and as the kernel does (`o + 1`). -/
theorem one_add_organ (o : Fin 13) : IntOp.addi (1#32 : BitVec 32) (BitVec.ofNat 32 o.val) = BitVec.ofNat 32 (o.val + 1) := by
  fin_cases o <;> rfl

theorem organ_add_one (o : Fin 13) : IntOp.addi (BitVec.ofNat 32 o.val) (1#32 : BitVec 32) = BitVec.ofNat 32 (o.val + 1) := by
  fin_cases o <;> rfl

theorem cmpi_eq_of_eq {x y : BitVec 32} (h : x = y) : IntOp.cmpi .eq x y = 1#1 := by
  subst h; simp [IntOp.cmpi]

theorem cmpi_eq_of_ne {x y : BitVec 32} (h : ¬x = y) : IntOp.cmpi .eq x y = 0#1 := by
  have hb : (x == y) = false := by simpa using h
  simp [IntOp.cmpi, hb]

/-- The host's spelling of the indicator: the one-bit comparison converted unsigned. -/
theorem uitofp_cmpi_eq (t : BitVec 32) (o : Fin 13) :
    FloatOps.uitofp (F := Ideal) .f32 (IntOp.cmpi .eq t (IntOp.addi (1#32 : BitVec 32) (BitVec.ofNat 32 o.val))) = hotWord t o := by
  rw [one_add_organ]
  unfold hotWord
  by_cases h : t = BitVec.ofNat 32 (o.val + 1)
  · rw [cmpi_eq_of_eq h, if_pos h]
    show ((((1#1 : BitVec 1).toNat : ℝ)) : EReal) = 1
    simp
  · rw [cmpi_eq_of_ne h, if_neg h]
    show ((((0#1 : BitVec 1).toNat : ℝ)) : EReal) = 0
    simp

/-- The kernel's spelling: the comparison zero-extended to 32 bits, converted signed. -/
theorem sitofp_extui_cmpi_eq (t : BitVec 32) (o : Fin 13) :
    FloatOps.sitofp (F := Ideal) .f32 ((IntOp.cmpi .eq t (IntOp.addi (BitVec.ofNat 32 o.val) (1#32 : BitVec 32))).setWidth 32) = hotWord t o := by
  rw [organ_add_one]
  unfold hotWord
  by_cases h : t = BitVec.ofNat 32 (o.val + 1)
  · rw [cmpi_eq_of_eq h, if_pos h]
    show (((((1#1 : BitVec 1).setWidth 32).toInt : ℝ)) : EReal) = 1
    rw [show ((1#1 : BitVec 1).setWidth 32).toInt = 1 from by decide]
    simp
  · rw [cmpi_eq_of_ne h, if_neg h]
    show (((((0#1 : BitVec 1).setWidth 32).toInt : ℝ)) : EReal) = 0
    rw [show ((0#1 : BitVec 1).setWidth 32).toInt = 0 from by decide]
    simp

/-- Σ over the volume of prediction × indicator. -/
def sumProd (x : SPred.Idx → EReal) (y : SLab.Idx → BitVec 32) : SOrg.Idx → EReal := fun j =>
  ∑ d : Fin 48, ∑ h : Fin 256, ∑ w : Fin 256, x (ix5 (j 0) (chan (j 1)) d h w) * hotWord (y (ix4 (j 0) d h w)) (j 1)

/-- Σ over the volume of the squared prediction. -/
def sumSq (x : SPred.Idx → EReal) : SOrg.Idx → EReal := fun j =>
  ∑ d : Fin 48, ∑ h : Fin 256, ∑ w : Fin 256, x (ix5 (j 0) (chan (j 1)) d h w) * x (ix5 (j 0) (chan (j 1)) d h w)

/-- Σ over the volume of the indicator: the organ's voxel count. -/
def sumHot (y : SLab.Idx → BitVec 32) : SOrg.Idx → EReal := fun j =>
  ∑ d : Fin 48, ∑ h : Fin 256, ∑ w : Fin 256, hotWord (y (ix4 (j 0) d h w)) (j 1)

/-! ## The same sums cut into the 96 steps the kernel walks

  Step `n` covers depth slice `n / 2` and rows `128 (n % 2) … 128 (n % 2) + 127`, all columns. (The two
  coordinates are reduced modulo their extents so that they are defined at every natural `n`; below 96 the
  reduction changes nothing.) -/

/-- Step `n`'s depth slice. -/
def stepDepth (n : ℕ) : Fin 48 := ⟨n / 2 % 48, Nat.mod_lt _ (by decide)⟩

/-- Row `h` of step `n`'s tile, as a row of the volume. -/
def stepRow (n : ℕ) (h : Fin 128) : Fin 256 := ⟨(128 * (n % 2) + h.val) % 256, Nat.mod_lt _ (by decide)⟩

theorem stepDepth_val {n : ℕ} (hn : n < 96) : (stepDepth n).val = n / 2 := by
  show n / 2 % 48 = n / 2; omega

theorem stepRow_val (n : ℕ) (h : Fin 128) : (stepRow n h).val = 128 * (n % 2) + h.val := by
  have := h.isLt; show (128 * (n % 2) + h.val) % 256 = _; omega

/-- Step `n`'s share of `sumProd`. -/
def tileProd (x : SPred.Idx → EReal) (y : SLab.Idx → BitVec 32) (n : ℕ) : SOrg.Idx → EReal := fun j =>
  ∑ h : Fin 128, ∑ w : Fin 256,
    x (ix5 (j 0) (chan (j 1)) (stepDepth n) (stepRow n h) w) * hotWord (y (ix4 (j 0) (stepDepth n) (stepRow n h) w)) (j 1)

/-- Step `n`'s share of `sumSq`. -/
def tileSq (x : SPred.Idx → EReal) (n : ℕ) : SOrg.Idx → EReal := fun j =>
  ∑ h : Fin 128, ∑ w : Fin 256,
    x (ix5 (j 0) (chan (j 1)) (stepDepth n) (stepRow n h) w) * x (ix5 (j 0) (chan (j 1)) (stepDepth n) (stepRow n h) w)

/-- Step `n`'s share of `sumHot`. -/
def tileHot (y : SLab.Idx → BitVec 32) (n : ℕ) : SOrg.Idx → EReal := fun j =>
  ∑ h : Fin 128, ∑ w : Fin 256, hotWord (y (ix4 (j 0) (stepDepth n) (stepRow n h) w)) (j 1)

end Cert.Dice

end
-- ==== Proof.Tail.lean ====
/-
  The arithmetic both programs apply to the five (batch, organ) sums, as ONE function. From
  (inter, p2, t2) per prediction array:

    half inter p2 t2 = (Σ over the 13 organs of  2 · inter / (p2 + t2 + ε)) / 13        per batch,
    diceTail … = (Σ over the 2 batches of  2 − (half of the first array + half of the second)) / 2.

  The float literals stay as their bit patterns: both programs use the same words, so none is ever evaluated.
  The shape facts the host operations take are parameters, so that either program supplies its own.
-/
import proofs.«141704_j80470507258049_1_alg».proof.Proof.Spec

noncomputable section

namespace Cert.Dice

open Idealize.ShloMosaic

abbrev SBat : Shape := ⟨1, ![2]⟩
abbrev SOne : Shape := ⟨0, ![]⟩

variable {F : FTy → Type} [FloatOps F]

/-- One prediction array's mean dice score per batch. -/
def half (hb13 : SOne.BroadcastsInDim SOrg (![] : Fin 0 → Fin SOrg.rank)) (hb2 : SOne.BroadcastsInDim SBat (![] : Fin 0 → Fin SBat.rank))
    (hr1 : SOrg.ReducesTo [1] SBat) (h0 : 0 < SOne.numel) (inter p2 t2 : FVec F SOrg .f32) : FVec F SBat .f32 :=
  Host.divf
    (Host.reduceAdd
      (Host.divf (mulf (broadcastInDim SOrg ![] hb13 (constant SOne .f32 0x40000000#32)) inter)
        (addf (addf p2 t2) (broadcastInDim SOrg ![] hb13 (constant SOne .f32 0x3727C5AC#32))))
      (constant SOne .f32 0x00000000#32) hr1 h0)
    (broadcastInDim SBat ![] hb2 (constant SOne .f32 0x41500000#32))

/-- The loss: the batch mean of `2 − (half₁ + half₂)`. -/
def diceTail (hb13 : SOne.BroadcastsInDim SOrg (![] : Fin 0 → Fin SOrg.rank)) (hb2 : SOne.BroadcastsInDim SBat (![] : Fin 0 → Fin SBat.rank))
    (hr1 : SOrg.ReducesTo [1] SBat) (hr0 : SBat.ReducesTo [0] SOne) (h0 : 0 < SOne.numel)
    (inter1 p1 t1 inter2 p2 t2 : FVec F SOrg .f32) : FVec F SOne .f32 :=
  Host.divf
    (Host.reduceAdd
      (subf (broadcastInDim SBat ![] hb2 (constant SOne .f32 0x40000000#32))
        (addf (half hb13 hb2 hr1 h0 inter1 p1 t1) (half hb13 hb2 hr1 h0 inter2 p2 t2)))
      (constant SOne .f32 0x00000000#32) hr0 h0)
    (constant SOne .f32 0x40000000#32)

end Cert.Dice

end
-- ==== Proof.KernelRun.lean ====
/-
  The idealized kernel's run, read: after the region the host lines sum each output array over its two rows (one
  per run of steps) and apply the shared tail; the result buffer ends at that value, the arguments unchanged.
-/
import proofs.«141704_j80470507258049_1_alg».proof.Proof.Gen.KernelIdeal.Frame
import proofs.«141704_j80470507258049_1_alg».proof.Proof.KernelFinal
import proofs.«141704_j80470507258049_1_alg».proof.Proof.Tail
import Idealize.ShloMosaic.Lib.Pipeline.Value
import Idealize.ShloMosaic.Lib.Pipeline.FrameSuffix
import Idealize.ShloMosaic.Lib.StableHlo.Run

noncomputable section

namespace Cert.KernelIdeal.Run

open Cert.KernelIdeal Cert.KernelIdeal.Gen Cert.KernelIdeal.Final Cert.Dice
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- An output array summed over its two rows, from zero: the host's first five lines after the region. -/
abbrev rowSum (A : FVec F S2x2x13 .f32) : FVec F S2x13 .f32 :=
  Host.reduceAdd A (constant S_ .f32 0x00000000#32) Facts₀.reducesTo_S2x2x13_S2x13_d0 Facts₀.h_S_

/-- The result's value: the shared tail of the five row sums. -/
abbrev result (c : Dev nD) : FVec F SOne .f32 :=
  diceTail Facts₀.bcast_S_S2x13 Facts₀.bcast_S_S2 Facts₀.reducesTo_S2x13_S2_d1 Facts₀.reducesTo_S2_S_d0 Facts₀.h_S_
    (rowSum (rows3 m c)) (rowSum (rows4 m c)) (rowSum (rows7 m c))
    (rowSum (rows5 m c)) (rowSum (rows6 m c)) (rowSum (rows7 m c))

set_option maxHeartbeats 8000000 in
set_option maxRecDepth 8192 in
/-- What the host lines after the region leave in the result buffer. -/
theorem tail_eq (c : Dev nD) :
    Pipeline.afterTail₀ cfgs (dats m) 0 (V0 m) [hostOps1] c main_v28 = result m c := by
  have e3 : Pipeline.withArrays spec0 c (V0 m c) (fun w => (dats m 0 c).arrAt w cfg0.N) (Proc.devRef .tc main_v0_0) = rows3 m c :=
    (Pipeline.withArrays_arr spec0 launch0.win.arr_inj c _ _ 3).trans (final3 m c)
  have e4 : Pipeline.withArrays spec0 c (V0 m c) (fun w => (dats m 0 c).arrAt w cfg0.N) (Proc.devRef .tc main_v0_1) = rows4 m c :=
    (Pipeline.withArrays_arr spec0 launch0.win.arr_inj c _ _ 4).trans (final4 m c)
  have e5 : Pipeline.withArrays spec0 c (V0 m c) (fun w => (dats m 0 c).arrAt w cfg0.N) (Proc.devRef .tc main_v0_2) = rows5 m c :=
    (Pipeline.withArrays_arr spec0 launch0.win.arr_inj c _ _ 5).trans (final5 m c)
  have e6 : Pipeline.withArrays spec0 c (V0 m c) (fun w => (dats m 0 c).arrAt w cfg0.N) (Proc.devRef .tc main_v0_3) = rows6 m c :=
    (Pipeline.withArrays_arr spec0 launch0.win.arr_inj c _ _ 6).trans (final6 m c)
  have e7 : Pipeline.withArrays spec0 c (V0 m c) (fun w => (dats m 0 c).arrAt w cfg0.N) (Proc.devRef .tc main_v0_4) = rows7 m c :=
    (Pipeline.withArrays_arr spec0 launch0.win.arr_inj c _ _ 7).trans (final7 m c)
  unfold Pipeline.afterTail₀
  show StableHlo.after hostOps1 _ (Proc.devRef .tc main_v28) = _
  after_results_simp
  rw [e3, e4, e5, e6, e7]
  rfl

/-- The run: every weakly fair execution ends with the result buffer at `result` and the arguments unchanged. -/
theorem run : θ_run defs (onTc (τ := τ) (main (F := F))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v28 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.KernelBlocks.lean ====
/-
  Where a grid step's staged blocks sit in the argument arrays: step `t` stages depth slice `t / 2` and rows
  `128 (t % 2) …` of both prediction arrays (all 14 channels) and of the label array.
-/
import proofs.«141704_j80470507258049_1_alg».proof.Proof.Gen.KernelIdeal.Frame
import proofs.«141704_j80470507258049_1_alg».proof.Proof.Spec
import Idealize.ShloMosaic.Lib.Pipeline.Value

noncomputable section

namespace Cert.KernelIdeal.Blocks

open Cert.KernelIdeal Cert.KernelIdeal.Gen Cert.Dice
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Channels 1 … 13 of a staged prediction block: what the body's load of it reads. -/
abbrev chans (x : Vec F S2x14x1x128x256 .f32) : Vec F S2x13x1x128x256 .f32 :=
  View.ld x (Rect.unit ![0, 1, 0, 0, 0] ![2, 13, 1, 128, 256] Facts₀.inb_S2x14x1x128x256_S2x13x1x128x256_0_1_0_0_0)

/-- The windows' block indices at step `t`, decided once over the 96 points of the grid: the two prediction
    windows and the label window sit at depth block `t / 2` and row block `t % 2`, block 0 on every other axis. -/
theorem index0 : ∀ t : Fin grid0.N, win0_0.index t 0 = 0 ∧ win0_0.index t 1 = 0 ∧ win0_0.index t 2 = t.val / 2
    ∧ win0_0.index t 3 = t.val % 2 ∧ win0_0.index t 4 = 0 := by
  decide +kernel

/-- The second prediction window's block indices at step `t`: depth block `t / 2`, row block `t % 2`, else 0. -/
theorem index1 : ∀ t : Fin grid0.N, win0_1.index t 0 = 0 ∧ win0_1.index t 1 = 0 ∧ win0_1.index t 2 = t.val / 2
    ∧ win0_1.index t 3 = t.val % 2 ∧ win0_1.index t 4 = 0 := by
  decide +kernel

/-- The label window's block indices at step `t`: depth block `t / 2`, row block `t % 2`, else 0. -/
theorem index2 : ∀ t : Fin grid0.N, win0_2.index t 0 = 0 ∧ win0_2.index t 1 = t.val / 2 ∧ win0_2.index t 2 = t.val % 2
    ∧ win0_2.index t 3 = 0 := by
  decide +kernel

/-- A step's number is below the grid's 96 points. -/
theorem step_lt (t : Fin cfg0.N) : t.val < 96 := lt_of_lt_of_eq t.isLt N_0

/-- The load of channels 1 … 13 reads channel `1 + o` of the block: the rectangle starts at channel 1, at 0 on
    every other axis, with unit strides. -/
theorem chans_apply (x : Vec F S2x14x1x128x256 .f32) (b : Fin 2) (o : Fin 13) (h : Fin 128) (w : Fin 256) :
    chans x (ix5 b o 0 h w) = x (ix5 b (chan o) 0 h w) := by
  show x _ = x _
  congr 1
  funext a
  apply Fin.ext
  match a with
  | ⟨0, _⟩ => show 0 + 1 * b.val = b.val; omega
  | ⟨1, _⟩ => show 1 + 1 * o.val = (chan o).val; rw [chan_val]; omega
  | ⟨2, _⟩ => show 0 + 1 * 0 = 0; omega
  | ⟨3, _⟩ => show 0 + 1 * h.val = h.val; omega
  | ⟨4, _⟩ => show 0 + 1 * w.val = w.val; omega

/-- Window 0's block at step `t`, at any channel `k`: the block's coordinate in the array is block index × block
    size + the coordinate inside the block, on each of the five axes. -/
theorem pred0 (c : Dev nD) (t : Fin cfg0.N) (b : Fin 2) (k : Fin 14) (h : Fin 128) (w : Fin 256) :
    (iblk m c 0 t : Vec F S2x14x1x128x256 .f32) (ix5 b k 0 h w)
      = V m c main_arg0 (ix5 b k (stepDepth t.val) (stepRow t.val h) w) := by
  obtain ⟨h0, h1, h2, h3, h4⟩ := index0 t
  have ht := step_lt t
  unfold iblk
  rw [View.read_apply]
  show V m c main_arg0 _ = V m c main_arg0 _
  congr 1
  funext a
  apply Fin.ext
  match a with
  | ⟨0, _⟩ => show win0_0.index t 0 * 2 + 1 * b.val = b.val; rw [h0]; omega
  | ⟨1, _⟩ => show win0_0.index t 1 * 14 + 1 * k.val = k.val; rw [h1]; omega
  | ⟨2, _⟩ => show win0_0.index t 2 * 1 + 1 * 0 = (stepDepth t.val).val; rw [h2, stepDepth_val ht]; omega
  | ⟨3, _⟩ => show win0_0.index t 3 * 128 + 1 * h.val = (stepRow t.val h).val; rw [h3, stepRow_val]; omega
  | ⟨4, _⟩ => show win0_0.index t 4 * 256 + 1 * w.val = w.val; rw [h4]; omega

/-- Window 1's block at step `t`, at any channel `k`: as window 0's, over the second prediction array. -/
theorem pred1 (c : Dev nD) (t : Fin cfg0.N) (b : Fin 2) (k : Fin 14) (h : Fin 128) (w : Fin 256) :
    (iblk m c 1 t : Vec F S2x14x1x128x256 .f32) (ix5 b k 0 h w)
      = V m c main_arg1 (ix5 b k (stepDepth t.val) (stepRow t.val h) w) := by
  obtain ⟨h0, h1, h2, h3, h4⟩ := index1 t
  have ht := step_lt t
  unfold iblk
  rw [View.read_apply]
  show V m c main_arg1 _ = V m c main_arg1 _
  congr 1
  funext a
  apply Fin.ext
  match a with
  | ⟨0, _⟩ => show win0_1.index t 0 * 2 + 1 * b.val = b.val; rw [h0]; omega
  | ⟨1, _⟩ => show win0_1.index t 1 * 14 + 1 * k.val = k.val; rw [h1]; omega
  | ⟨2, _⟩ => show win0_1.index t 2 * 1 + 1 * 0 = (stepDepth t.val).val; rw [h2, stepDepth_val ht]; omega
  | ⟨3, _⟩ => show win0_1.index t 3 * 128 + 1 * h.val = (stepRow t.val h).val; rw [h3, stepRow_val]; omega
  | ⟨4, _⟩ => show win0_1.index t 4 * 256 + 1 * w.val = w.val; rw [h4]; omega

theorem chans_pred0 (c : Dev nD) (t : Fin cfg0.N) (b : Fin 2) (o : Fin 13) (h : Fin 128) (w : Fin 256) :
    chans (iblk m c 0 t) (ix5 b o 0 h w)
      = V m c main_arg0 (ix5 b (chan o) (stepDepth t.val) (stepRow t.val h) w) :=
  (chans_apply (iblk m c 0 t) b o h w).trans (pred0 m c t b (chan o) h w)

theorem chans_pred1 (c : Dev nD) (t : Fin cfg0.N) (b : Fin 2) (o : Fin 13) (h : Fin 128) (w : Fin 256) :
    chans (iblk m c 1 t) (ix5 b o 0 h w)
      = V m c main_arg1 (ix5 b (chan o) (stepDepth t.val) (stepRow t.val h) w) :=
  (chans_apply (iblk m c 1 t) b o h w).trans (pred1 m c t b (chan o) h w)

theorem labels (c : Dev nD) (t : Fin cfg0.N) (b : Fin 2) (h : Fin 128) (w : Fin 256) :
    (iblk m c 2 t : Vec F S2x1x128x256 .i32) (ix4 b 0 h w)
      = V m c main_arg2 (ix4 b (stepDepth t.val) (stepRow t.val h) w) := by
  obtain ⟨h0, h1, h2, h3⟩ := index2 t
  have ht := step_lt t
  unfold iblk
  rw [View.read_apply]
  show V m c main_arg2 _ = V m c main_arg2 _
  congr 1
  funext a
  apply Fin.ext
  match a with
  | ⟨0, _⟩ => show win0_2.index t 0 * 2 + 1 * b.val = b.val; rw [h0]; omega
  | ⟨1, _⟩ => show win0_2.index t 1 * 1 + 1 * 0 = (stepDepth t.val).val; rw [h1, stepDepth_val ht]; omega
  | ⟨2, _⟩ => show win0_2.index t 2 * 128 + 1 * h.val = (stepRow t.val h).val; rw [h2, stepRow_val]; omega
  | ⟨3, _⟩ => show win0_2.index t 3 * 256 + 1 * w.val = w.val; rw [h3]; omega

end Cert.KernelIdeal.Blocks

end
-- ==== Proof.KernelPieces.lean ====
/-
  What one run of the kernel body leaves in each of the five output staging buffers, as a value: the accumulate
  payload of that output over the buffer's previous contents (a later step of a run), or over the zero table the
  same run has just stored (a run's first step). The body's loads read the staged blocks whole, except the two
  prediction loads, which read channels 1 … 13 (`Blocks.chans`).
-/
import proofs.«141704_j80470507258049_1_alg».proof.Proof.Gen.KernelIdeal.Frame
import proofs.«141704_j80470507258049_1_alg».proof.Proof.KernelBlocks
import Idealize.ShloMosaic.Lib.Pipeline.Value
import Idealize.ShloMosaic.Lib.Tactic

noncomputable section

namespace Cert.KernelIdeal.Pieces

open Cert.KernelIdeal Cert.KernelIdeal.Gen Cert.KernelIdeal.Blocks
open Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later step (the reset not taken), output 3 (prediction × indicator): the body's one covering store leaves its accumulate
    payload over what the buffer held. -/
theorem out_B_3 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : ¬cond0_0 i)
    (x0 x1 : Vec F S2x14x1x128x256 .f32) (x2 : Vec F S2x1x128x256 .i32) (xo3 xo4 xo5 xo6 xo7 : Vec F S1x2x13 .f32) :
    out0_B_3 c i a3 h3 a4 h4 a5 h5 a6 h6 a7 h7 a8 h8 a9 h9 a10 h10 hc x0 x1 x2 xo3 xo4 xo5 xo6 xo7 = k0_pay9 (chans x0) x2 xo3 := by
  unfold out0_B_3
  rw [View.read_writes_eq_canon _ _ _ (cover0_B_3 c i a3 h3 a4 h4 a5 h5 a6 h6 a7 h7 a8 h8 a9 h9 a10 h10 hc x0 x1 x2 xo3 xo4 xo5 xo6 xo7)]
  unfold kernelRun0_B
  dsimp only
  sl_unfold_words
  rw [View.canon_unit_zero hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A run's first step (the reset taken), output 3: the zero table is stored, read back, and the same payload
    stored over it. -/
theorem out_A_3 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : cond0_0 i)
    (x0 x1 : Vec F S2x14x1x128x256 .f32) (x2 : Vec F S2x1x128x256 .i32) :
    out0_A_3 c i a3 h3 a4 h4 a5 h5 a6 h6 a7 h7 a8 h8 a9 h9 a10 h10 hc x0 x1 x2 = k0_pay9 (chans x0) x2 k0_pay1 := by
  unfold out0_A_3
  rw [View.read_writes_eq_canon _ _ _ (cover0_A_3 c i a3 h3 a4 h4 a5 h5 a6 h6 a7 h7 a8 h8 a9 h9 a10 h10 hc x0 x1 x2)]
  unfold kernelRun0_A
  dsimp only
  sl_unfold_words
  rw [View.canon_cons_unit_zero (S := S1x2x13) hz3, View.readCov_unit_zero (S := S1x2x13) _ hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A later step (the reset not taken), output 4 (squared prediction): the body's one covering store leaves its accumulate
    payload over what the buffer held. -/
theorem out_B_4 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : ¬cond0_0 i)
    (x0 x1 : Vec F S2x14x1x128x256 .f32) (x2 : Vec F S2x1x128x256 .i32) (xo3 xo4 xo5 xo6 xo7 : Vec F S1x2x13 .f32) :
    out0_B_4 c i a3 h3 a4 h4 a5 h5 a6 h6 a7 h7 a8 h8 a9 h9 a10 h10 hc x0 x1 x2 xo3 xo4 xo5 xo6 xo7 = k0_pay10 (k0_pay6 (chans x0)) xo4 := by
  unfold out0_B_4
  rw [View.read_writes_eq_canon _ _ _ (cover0_B_4 c i a3 h3 a4 h4 a5 h5 a6 h6 a7 h7 a8 h8 a9 h9 a10 h10 hc x0 x1 x2 xo3 xo4 xo5 xo6 xo7)]
  unfold kernelRun0_B
  dsimp only
  sl_unfold_words
  rw [View.canon_unit_zero hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A run's first step (the reset taken), output 4: the zero table is stored, read back, and the same payload
    stored over it. -/
theorem out_A_4 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : cond0_0 i)
    (x0 x1 : Vec F S2x14x1x128x256 .f32) (x2 : Vec F S2x1x128x256 .i32) :
    out0_A_4 c i a3 h3 a4 h4 a5 h5 a6 h6 a7 h7 a8 h8 a9 h9 a10 h10 hc x0 x1 x2 = k0_pay10 (k0_pay6 (chans x0)) k0_pay2 := by
  unfold out0_A_4
  rw [View.read_writes_eq_canon _ _ _ (cover0_A_4 c i a3 h3 a4 h4 a5 h5 a6 h6 a7 h7 a8 h8 a9 h9 a10 h10 hc x0 x1 x2)]
  unfold kernelRun0_A
  dsimp only
  sl_unfold_words
  rw [View.canon_cons_unit_zero (S := S1x2x13) hz3, View.readCov_unit_zero (S := S1x2x13) _ hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A later step (the reset not taken), output 5 (second prediction × indicator): the body's one covering store leaves its accumulate
    payload over what the buffer held. -/
theorem out_B_5 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : ¬cond0_0 i)
    (x0 x1 : Vec F S2x14x1x128x256 .f32) (x2 : Vec F S2x1x128x256 .i32) (xo3 xo4 xo5 xo6 xo7 : Vec F S1x2x13 .f32) :
    out0_B_5 c i a3 h3 a4 h4 a5 h5 a6 h6 a7 h7 a8 h8 a9 h9 a10 h10 hc x0 x1 x2 xo3 xo4 xo5 xo6 xo7 = k0_pay11 (k0_pay7 (chans x1)) (k0_pay8 x2) xo5 := by
  unfold out0_B_5
  rw [View.read_writes_eq_canon _ _ _ (cover0_B_5 c i a3 h3 a4 h4 a5 h5 a6 h6 a7 h7 a8 h8 a9 h9 a10 h10 hc x0 x1 x2 xo3 xo4 xo5 xo6 xo7)]
  unfold kernelRun0_B
  dsimp only
  sl_unfold_words
  rw [View.canon_unit_zero hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A run's first step (the reset taken), output 5: the zero table is stored, read back, and the same payload
    stored over it. -/
theorem out_A_5 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : cond0_0 i)
    (x0 x1 : Vec F S2x14x1x128x256 .f32) (x2 : Vec F S2x1x128x256 .i32) :
    out0_A_5 c i a3 h3 a4 h4 a5 h5 a6 h6 a7 h7 a8 h8 a9 h9 a10 h10 hc x0 x1 x2 = k0_pay11 (k0_pay7 (chans x1)) (k0_pay8 x2) k0_pay3 := by
  unfold out0_A_5
  rw [View.read_writes_eq_canon _ _ _ (cover0_A_5 c i a3 h3 a4 h4 a5 h5 a6 h6 a7 h7 a8 h8 a9 h9 a10 h10 hc x0 x1 x2)]
  unfold kernelRun0_A
  dsimp only
  sl_unfold_words
  rw [View.canon_cons_unit_zero (S := S1x2x13) hz3, View.readCov_unit_zero (S := S1x2x13) _ hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A later step (the reset not taken), output 6 (squared second prediction): the body's one covering store leaves its accumulate
    payload over what the buffer held. -/
theorem out_B_6 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : ¬cond0_0 i)
    (x0 x1 : Vec F S2x14x1x128x256 .f32) (x2 : Vec F S2x1x128x256 .i32) (xo3 xo4 xo5 xo6 xo7 : Vec F S1x2x13 .f32) :
    out0_B_6 c i a3 h3 a4 h4 a5 h5 a6 h6 a7 h7 a8 h8 a9 h9 a10 h10 hc x0 x1 x2 xo3 xo4 xo5 xo6 xo7 = k0_pay12 (k0_pay7 (chans x1)) xo6 := by
  unfold out0_B_6
  rw [View.read_writes_eq_canon _ _ _ (cover0_B_6 c i a3 h3 a4 h4 a5 h5 a6 h6 a7 h7 a8 h8 a9 h9 a10 h10 hc x0 x1 x2 xo3 xo4 xo5 xo6 xo7)]
  unfold kernelRun0_B
  dsimp only
  sl_unfold_words
  rw [View.canon_unit_zero hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A run's first step (the reset taken), output 6: the zero table is stored, read back, and the same payload
    stored over it. -/
theorem out_A_6 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : cond0_0 i)
    (x0 x1 : Vec F S2x14x1x128x256 .f32) (x2 : Vec F S2x1x128x256 .i32) :
    out0_A_6 c i a3 h3 a4 h4 a5 h5 a6 h6 a7 h7 a8 h8 a9 h9 a10 h10 hc x0 x1 x2 = k0_pay12 (k0_pay7 (chans x1)) k0_pay4 := by
  unfold out0_A_6
  rw [View.read_writes_eq_canon _ _ _ (cover0_A_6 c i a3 h3 a4 h4 a5 h5 a6 h6 a7 h7 a8 h8 a9 h9 a10 h10 hc x0 x1 x2)]
  unfold kernelRun0_A
  dsimp only
  sl_unfold_words
  rw [View.canon_cons_unit_zero (S := S1x2x13) hz3, View.readCov_unit_zero (S := S1x2x13) _ hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A later step (the reset not taken), output 7 (indicator): the body's one covering store leaves its accumulate
    payload over what the buffer held. -/
theorem out_B_7 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : ¬cond0_0 i)
    (x0 x1 : Vec F S2x14x1x128x256 .f32) (x2 : Vec F S2x1x128x256 .i32) (xo3 xo4 xo5 xo6 xo7 : Vec F S1x2x13 .f32) :
    out0_B_7 c i a3 h3 a4 h4 a5 h5 a6 h6 a7 h7 a8 h8 a9 h9 a10 h10 hc x0 x1 x2 xo3 xo4 xo5 xo6 xo7 = k0_pay13 (k0_pay8 x2) xo7 := by
  unfold out0_B_7
  rw [View.read_writes_eq_canon _ _ _ (cover0_B_7 c i a3 h3 a4 h4 a5 h5 a6 h6 a7 h7 a8 h8 a9 h9 a10 h10 hc x0 x1 x2 xo3 xo4 xo5 xo6 xo7)]
  unfold kernelRun0_B
  dsimp only
  sl_unfold_words
  rw [View.canon_unit_zero hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

/-- A run's first step (the reset taken), output 7: the zero table is stored, read back, and the same payload
    stored over it. -/
theorem out_A_7 (c : Dev nD) (i : grid0.Coords) (a3 : Memref sig .tc .vmem S2x14x1x128x256 .f32) (h3 : a3.IsWhole) (a4 : Memref sig .tc .vmem S2x14x1x128x256 .f32) (h4 : a4.IsWhole) (a5 : Memref sig .tc .vmem S2x1x128x256 .i32) (h5 : a5.IsWhole) (a6 : Memref sig .tc .vmem S1x2x13 .f32) (h6 : a6.IsWhole) (a7 : Memref sig .tc .vmem S1x2x13 .f32) (h7 : a7.IsWhole) (a8 : Memref sig .tc .vmem S1x2x13 .f32) (h8 : a8.IsWhole) (a9 : Memref sig .tc .vmem S1x2x13 .f32) (h9 : a9.IsWhole) (a10 : Memref sig .tc .vmem S1x2x13 .f32) (h10 : a10.IsWhole) (hc : cond0_0 i)
    (x0 x1 : Vec F S2x14x1x128x256 .f32) (x2 : Vec F S2x1x128x256 .i32) :
    out0_A_7 c i a3 h3 a4 h4 a5 h5 a6 h6 a7 h7 a8 h8 a9 h9 a10 h10 hc x0 x1 x2 = k0_pay13 (k0_pay8 x2) k0_pay5 := by
  unfold out0_A_7
  rw [View.read_writes_eq_canon _ _ _ (cover0_A_7 c i a3 h3 a4 h4 a5 h5 a6 h6 a7 h7 a8 h8 a9 h9 a10 h10 hc x0 x1 x2)]
  unfold kernelRun0_A
  dsimp only
  sl_unfold_words
  rw [View.canon_cons_unit_zero (S := S1x2x13) hz3, View.readCov_unit_zero (S := S1x2x13) _ hz3]
  simp only [View.readAt_eq_ld, h3.read_unread, h4.read_unread, h5.read_unread, h6.read_unread, h7.read_unread, h8.read_unread, h9.read_unread, h10.read_unread,
    View.ld_unit_zero (S := S1x2x13) hz3, View.ld_unit_zero (S := S2x1x128x256) hz4]

end Cert.KernelIdeal.Pieces

end
-- ==== Proof.Regroup.lean ====
/-
  Regrouping of finite sums in a commutative monoid, with no reference to any program.

  * A sum over the indices that a projection sends to a fixed value is a sum over any parametrisation of
    that fibre (`sum_fibre`).
  * The depth axis of 48 slices and the height axis of 256 rows, walked as 96 steps `t` (depth `t / 2`,
    row tile `t % 2`) of 128 rows each, is the whole depth × height box (`sum_steps_tiles`).
  * 96 steps are two runs of 48 (`sum_runs`).
-/
import Idealize.ShloMosaic.Lib.ValueIdx

namespace Cert.Regroup

open Finset

variable {M : Type*} [AddCommMonoid M]

/-- A sum over the fibre of `drop` above `j` is the sum over a parameter type `κ` that `emb` maps
    one-to-one onto that fibre. -/
theorem sum_fibre {ι κ β : Type*} [Fintype ι] [Fintype κ] (drop : ι → β) (j : β)
    [DecidablePred fun i => drop i = j] (emb : κ → ι) (hinj : Function.Injective emb)
    (hdrop : ∀ k, drop (emb k) = j) (hsurj : ∀ i, drop i = j → ∃ k, emb k = i) (x : ι → M) :
    ∑ i ∈ univ.filter (fun i => drop i = j), x i = ∑ k, x (emb k) := by
  classical
  have e : ∑ k, x (emb k) = ∑ i ∈ univ.map ⟨emb, hinj⟩, x i := (Finset.sum_map univ ⟨emb, hinj⟩ x).symm
  rw [e]
  refine Finset.sum_congr ?_ fun _ _ => rfl
  ext i
  simp only [mem_filter, mem_univ, true_and, mem_map, Function.Embedding.coeFn_mk]
  exact ⟨fun h => hsurj i h, fun ⟨k, hk⟩ => hk ▸ hdrop k⟩

/-- Step `t` of 96 is depth slice `t / 2` and row tile `t % 2`; a tile is 128 rows. Summing a function of
    (depth, row, column) over the steps and, inside each, over the tile's rows and all columns, is summing
    it over the whole box. -/
theorem sum_steps_tiles (g : Fin 48 → Fin 256 → Fin 256 → M)
    (D : Fin 96 → Fin 48) (H : Fin 96 → Fin 128 → Fin 256)
    (hD : ∀ t, (D t).val = t.val / 2) (hH : ∀ t h, (H t h).val = 128 * (t.val % 2) + h.val) :
    ∑ t : Fin 96, ∑ h : Fin 128, ∑ w : Fin 256, g (D t) (H t h) w
      = ∑ d : Fin 48, ∑ h : Fin 256, ∑ w : Fin 256, g d h w := by
  rw [← Equiv.sum_comp (finProdFinEquiv : Fin 48 × Fin 2 ≃ Fin 96)
    (fun t => ∑ h : Fin 128, ∑ w : Fin 256, g (D t) (H t h) w), Fintype.sum_prod_type]
  refine Finset.sum_congr rfl fun d _ => ?_
  rw [← Equiv.sum_comp (finProdFinEquiv : Fin 2 × Fin 128 ≃ Fin 256)
    (fun h => ∑ w : Fin 256, g d h w), Fintype.sum_prod_type]
  refine Finset.sum_congr rfl fun e _ => Finset.sum_congr rfl fun h _ => ?_
  have hd : D (finProdFinEquiv (d, e)) = d := Fin.ext (by
    rw [hD]; have := e.isLt; simp only [finProdFinEquiv_apply_val]; omega)
  have hh : H (finProdFinEquiv (d, e)) h = finProdFinEquiv (e, h) := Fin.ext (by
    rw [hH]; have := e.isLt; have := h.isLt; simp only [finProdFinEquiv_apply_val]; omega)
  rw [hd, hh]

/-- 96 steps are two runs of 48: run `c` is steps `48 c … 48 c + 47`. -/
theorem sum_runs (f : ℕ → M) :
    ∑ c : Fin 2, ∑ s ∈ range 48, f (48 * c.val + s) = ∑ t : Fin 96, f t.val := by
  rw [Fin.sum_univ_two, ← Finset.sum_range (fun t => f t), show (96 : ℕ) = 48 + 48 from rfl,
    Finset.sum_range_add]
  simp

end Cert.Regroup
-- ==== Proof.KernelTile.lean ====
/-
  What one grid step adds: each accumulate payload of the kernel body, read at a (batch, organ) entry at the ideal
  instance, is the accumulator's entry plus a sum over the tile's 128 rows and 256 columns.

  Every accumulate payload is the accumulator viewed as a [2,13] table, plus the sum over the last two axes of a
  [2,13,128,256] table, viewed back as [1,2,13]. The views keep the row-major position, so at (0, b, o) they read
  the (b, o) entry; the indices of the [2,13,128,256] table that lie above (b, o) are exactly (b, o, h, w) for the
  128 rows h and 256 columns w, so the sum over them is the double sum over rows and columns. The summand is read
  entry by entry: a prediction tile [2,13,1,128,256] viewed without its unit depth axis reads (b, o, 0, h, w), and
  the indicator table compares the label at (b, 0, h, w), broadcast along the organ axis, with organ o's label
  word o + 1 (the coordinate along the organ axis plus one), widens the one-bit result and converts it signed.
-/
import proofs.«141704_j80470507258049_1_alg».proof.Proof.Gen.KernelIdeal.Skeleton
import proofs.«141704_j80470507258049_1_alg».proof.Proof.Spec
import proofs.«141704_j80470507258049_1_alg».proof.Proof.Regroup
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Cert.Dice
open Idealize.ShloMosaic Idealize.ShloMosaic.TcCoe Idealize.ShloMosaic.ValueIdx

/-! ## The sum over a tile's rows and columns, and the three views -/

/-- The sum over the last two axes of a [2,13,128,256] table, read at (b, o): the indices that drop to (b, o) are
    (b, o, h, w) for the 128 rows h and 256 columns w, one for each pair (h, w), so the sum over them is the
    double sum over rows and columns. -/
theorem reduce_rows_cols (src : FVec Ideal S2x13x128x256 .f32) (b : Fin 2) (o : Fin 13) :
    multiReduction (F := Ideal) .add [2, 3] S2x13 src 0x00000000#32 reduces_S2x13x128x256_S2x13 (.inl rfl) rfl (ix2 b o)
      = ∑ h : Fin 128, ∑ w : Fin 256, src (ix4 b o h w) := by
  show ∑ i ∈ Finset.univ.filter (fun i => reduces_S2x13x128x256_S2x13.drop i = ix2 b o), src i = _
  -- dropping axes 2 and 3 keeps coordinates 0 and 1
  have hd0 : ∀ i : S2x13x128x256.Idx, ((reduces_S2x13x128x256_S2x13.drop i) 0 : Nat) = (i 0 : Nat) := fun i =>
    reduces_S2x13x128x256_S2x13.drop_apply_val_of_eq i 0 0
  have hd1 : ∀ i : S2x13x128x256.Idx, ((reduces_S2x13x128x256_S2x13.drop i) 1 : Nat) = (i 1 : Nat) := fun i =>
    reduces_S2x13x128x256_S2x13.drop_apply_val_of_eq i 1 1
  -- (h, w) ↦ (b, o, h, w) is one-to-one onto the indices above (b, o)
  rw [Cert.Regroup.sum_fibre (κ := Fin 128 × Fin 256) reduces_S2x13x128x256_S2x13.drop (ix2 b o)
    (fun p => ix4 b o p.1 p.2) ?_ ?_ ?_ src, Fintype.sum_prod_type]
  · intro p q hpq
    exact Prod.ext (congrFun hpq 2) (congrFun hpq 3)
  · intro p
    funext a
    apply Fin.ext
    match a with
    | ⟨0, _⟩ => exact hd0 _
    | ⟨1, _⟩ => exact hd1 _
  · intro i hi
    refine ⟨(i 2, i 3), ?_⟩
    have h0 : i 0 = b := Fin.ext ((hd0 i).symm.trans (congrArg Fin.val (congrFun hi 0)))
    have h1 : i 1 = o := Fin.ext ((hd1 i).symm.trans (congrArg Fin.val (congrFun hi 1)))
    have e := eq_ix4 i
    rw [h0, h1] at e
    exact e.symm

/-- A [2,13] table viewed as [1,2,13] reads, at (0, b, o), its (b, o) entry: both have row-major position 13 b + o. -/
theorem view_addUnit_apply {α : Type} (x : S2x13.Idx → α) (b : Fin 2) (o : Fin 13) :
    shapeCast S1x2x13 x shapeCasts_S2x13_S1x2x13 (ix3 0 b o) = x (ix2 b o) := by
  refine shapeCast_apply x _ (ix3 0 b o) (ix2 b o) ?_
  rw [Shape.rowMajor_val_two, Shape.rowMajor_val_three]
  show b.val * 13 + o.val = ((0 : Nat) * 2 + b.val) * 13 + o.val
  omega

/-- A [1,2,13] table viewed as [2,13] reads, at (b, o), its (0, b, o) entry. -/
theorem view_dropUnit_apply {α : Type} (x : S1x2x13.Idx → α) (b : Fin 2) (o : Fin 13) :
    shapeCast S2x13 x shapeCasts_S1x2x13_S2x13 (ix2 b o) = x (ix3 0 b o) := by
  refine shapeCast_apply x _ (ix2 b o) (ix3 0 b o) ?_
  rw [Shape.rowMajor_val_two, Shape.rowMajor_val_three]
  show ((0 : Nat) * 2 + b.val) * 13 + o.val = b.val * 13 + o.val
  omega

/-- A [2,13,1,128,256] tile viewed without its unit depth axis reads, at (b, o, h, w), its (b, o, 0, h, w) entry:
    both have row-major position ((13 b + o) 128 + h) 256 + w. -/
theorem view_dropDepth_apply {α : Type} (x : S2x13x1x128x256.Idx → α) (b : Fin 2) (o : Fin 13) (h : Fin 128) (w : Fin 256) :
    shapeCast S2x13x128x256 x shapeCasts_S2x13x1x128x256_S2x13x128x256 (ix4 b o h w) = x (ix5 b o 0 h w) := by
  refine shapeCast_apply x _ (ix4 b o h w) (ix5 b o 0 h w) ?_
  rw [Shape.rowMajor_val_four, Shape.rowMajor_val_five]
  show (((b.val * 13 + o.val) * 1 + (0 : Nat)) * 128 + h.val) * 256 + w.val = ((b.val * 13 + o.val) * 128 + h.val) * 256 + w.val
  omega

/-- The accumulate step: the accumulator viewed [2,13], plus the sum over the last two axes of a [2,13,128,256] table,
    viewed [1,2,13] and read at (0, b, o), is the accumulator's entry plus the table's sum over rows and columns. -/
theorem accumulate_apply (acc : Vec Ideal S1x2x13 .f32) (src : FVec Ideal S2x13x128x256 .f32) (b : Fin 2) (o : Fin 13) :
    shapeCast S1x2x13 (addf (shapeCast S2x13 acc shapeCasts_S1x2x13_S2x13)
        (multiReduction (F := Ideal) .add [2, 3] S2x13 src 0x00000000#32 reduces_S2x13x128x256_S2x13 (.inl rfl) rfl))
      shapeCasts_S2x13_S1x2x13 (ix3 0 b o)
      = acc (ix3 0 b o) + ∑ h : Fin 128, ∑ w : Fin 256, src (ix4 b o h w) := by
  rw [view_addUnit_apply, addf_apply, view_dropUnit_apply, reduce_rows_cols]

/-! ## The reset payloads -/

/-- The [2,13] splat of the word 0, viewed [1,2,13], is the real 0 at every entry. -/
theorem reset_apply (b : Fin 2) (o : Fin 13) :
    shapeCast S1x2x13 (broadcast S2x13 (FloatOps.ofBits (F := Ideal) FTy.f32 0x00000000#32)) shapeCasts_S2x13_S1x2x13 (ix3 0 b o)
      = 0 := by
  rw [view_addUnit_apply, broadcast_apply]
  exact Ideal.ofBits_zero_f32

/-- The five reset payloads are the zero table. -/
theorem pay1_apply (b : Fin 2) (o : Fin 13) : k0_pay1 (F := Ideal) (ix3 0 b o) = 0 := reset_apply b o
theorem pay2_apply (b : Fin 2) (o : Fin 13) : k0_pay2 (F := Ideal) (ix3 0 b o) = 0 := reset_apply b o
theorem pay3_apply (b : Fin 2) (o : Fin 13) : k0_pay3 (F := Ideal) (ix3 0 b o) = 0 := reset_apply b o
theorem pay4_apply (b : Fin 2) (o : Fin 13) : k0_pay4 (F := Ideal) (ix3 0 b o) = 0 := reset_apply b o
theorem pay5_apply (b : Fin 2) (o : Fin 13) : k0_pay5 (F := Ideal) (ix3 0 b o) = 0 := reset_apply b o

/-! ## The summands: the two prediction tiles and the indicator table, entry by entry -/

/-- The first prediction tile without its depth axis, at (b, o, h, w). -/
theorem pay6_apply (v5 : Vec Ideal S2x13x1x128x256 .f32) (b : Fin 2) (o : Fin 13) (h : Fin 128) (w : Fin 256) :
    k0_pay6 v5 (ix4 b o h w) = v5 (ix5 b o 0 h w) := view_dropDepth_apply v5 b o h w

/-- The second prediction tile without its depth axis, at (b, o, h, w). -/
theorem pay7_apply (v7 : Vec Ideal S2x13x1x128x256 .f32) (b : Fin 2) (o : Fin 13) (h : Fin 128) (w : Fin 256) :
    k0_pay7 v7 (ix4 b o h w) = v7 (ix5 b o 0 h w) := view_dropDepth_apply v7 b o h w

/-- The indicator table at (b, o, h, w): the label at (b, 0, h, w), broadcast along the organ axis, is compared with
    the organ axis's coordinate plus one, which at o is organ o's label word; the one-bit result widened to 32 bits and
    converted signed is the indicator that the label is organ o's. -/
theorem pay8_apply (v9 : Vec Ideal S2x1x128x256 .i32) (b : Fin 2) (o : Fin 13) (h : Fin 128) (w : Fin 256) :
    k0_pay8 (F := Ideal) v9 (ix4 b o h w) = hotWord (v9 (ix4 b 0 h w)) o := by
  unfold k0_pay8
  -- the labels viewed [2,128,256] and back are the labels
  rw [shapeCast_shapeCast]
  -- the label side: the broadcast along the organ axis reads coordinate 0 there
  have hl : broadcastTo S2x13x128x256 v9 broadcasts_S2x1x128x256_S2x13x128x256 (ix4 b o h w) = v9 (ix4 b 0 h w) :=
    broadcastTo_apply v9 _ (ix4 b o h w) (ix4 b 0 h w) (fun a => match a with
      | ⟨0, _⟩ => rfl | ⟨1, _⟩ => rfl | ⟨2, _⟩ => rfl | ⟨3, _⟩ => rfl)
  -- the organ side: the [1,13,1,1] table (coordinate along axis 1) + 1, broadcast, reads o + 1
  have hr : broadcastTo S2x13x128x256 (addi (iota Kind.tc S1x13x1x1 32 [1] iota_S1x13x1x1_d1_w32) (broadcast S1x13x1x1 1#32))
        broadcasts_S1x13x1x1_S2x13x128x256 (ix4 b o h w)
      = IntOp.addi (BitVec.ofNat 32 o.val) (1#32 : BitVec 32) := by
    refine (broadcastTo_apply (s := S1x13x1x1) _ broadcasts_S1x13x1x1_S2x13x128x256 (ix4 b o h w) (ix4 0 o 0 0)
      (fun a => match a with | ⟨0, _⟩ => rfl | ⟨1, _⟩ => rfl | ⟨2, _⟩ => rfl | ⟨3, _⟩ => rfl)).trans ?_
    show IntOp.addi (iota Kind.tc S1x13x1x1 32 [1] iota_S1x13x1x1_d1_w32 (ix4 0 o 0 0)) (1#32 : BitVec 32) = _
    rw [iota_single_apply]
  show FloatOps.sitofp (F := Ideal) .f32 ((IntOp.cmpi .eq (broadcastTo S2x13x128x256 v9 _ (ix4 b o h w))
    (broadcastTo S2x13x128x256 _ _ (ix4 b o h w))).setWidth 32) = _
  rw [hl, hr]
  exact sitofp_extui_cmpi_eq _ o

/-! ## The accumulate payloads -/

/-- prediction × indicator -/
theorem pay9_apply (v5 : Vec Ideal S2x13x1x128x256 .f32) (v9 : Vec Ideal S2x1x128x256 .i32) (acc : Vec Ideal S1x2x13 .f32)
    (b : Fin 2) (o : Fin 13) :
    k0_pay9 v5 v9 acc (ix3 0 b o)
      = acc (ix3 0 b o) + ∑ h : Fin 128, ∑ w : Fin 256, v5 (ix5 b o 0 h w) * hotWord (v9 (ix4 b 0 h w)) o := by
  unfold k0_pay9
  refine (accumulate_apply acc (mulf (k0_pay6 v5) (k0_pay8 v9)) b o).trans ?_
  refine congrArg (acc (ix3 0 b o) + ·) (Finset.sum_congr rfl fun h _ => Finset.sum_congr rfl fun w _ => ?_)
  rw [mulf_apply, pay6_apply, pay8_apply]

/-- squared prediction -/
theorem pay10_apply (v5 : Vec Ideal S2x13x1x128x256 .f32) (acc : Vec Ideal S1x2x13 .f32) (b : Fin 2) (o : Fin 13) :
    k0_pay10 (k0_pay6 v5) acc (ix3 0 b o)
      = acc (ix3 0 b o) + ∑ h : Fin 128, ∑ w : Fin 256, v5 (ix5 b o 0 h w) * v5 (ix5 b o 0 h w) := by
  unfold k0_pay10
  refine (accumulate_apply acc (mulf (k0_pay6 v5) (k0_pay6 v5)) b o).trans ?_
  refine congrArg (acc (ix3 0 b o) + ·) (Finset.sum_congr rfl fun h _ => Finset.sum_congr rfl fun w _ => ?_)
  rw [mulf_apply, pay6_apply]

/-- second prediction × indicator -/
theorem pay11_apply (v7 : Vec Ideal S2x13x1x128x256 .f32) (v9 : Vec Ideal S2x1x128x256 .i32) (acc : Vec Ideal S1x2x13 .f32)
    (b : Fin 2) (o : Fin 13) :
    k0_pay11 (k0_pay7 v7) (k0_pay8 v9) acc (ix3 0 b o)
      = acc (ix3 0 b o) + ∑ h : Fin 128, ∑ w : Fin 256, v7 (ix5 b o 0 h w) * hotWord (v9 (ix4 b 0 h w)) o := by
  unfold k0_pay11
  refine (accumulate_apply acc (mulf (k0_pay7 v7) (k0_pay8 v9)) b o).trans ?_
  refine congrArg (acc (ix3 0 b o) + ·) (Finset.sum_congr rfl fun h _ => Finset.sum_congr rfl fun w _ => ?_)
  rw [mulf_apply, pay7_apply, pay8_apply]

/-- squared second prediction -/
theorem pay12_apply (v7 : Vec Ideal S2x13x1x128x256 .f32) (acc : Vec Ideal S1x2x13 .f32) (b : Fin 2) (o : Fin 13) :
    k0_pay12 (k0_pay7 v7) acc (ix3 0 b o)
      = acc (ix3 0 b o) + ∑ h : Fin 128, ∑ w : Fin 256, v7 (ix5 b o 0 h w) * v7 (ix5 b o 0 h w) := by
  unfold k0_pay12
  refine (accumulate_apply acc (mulf (k0_pay7 v7) (k0_pay7 v7)) b o).trans ?_
  refine congrArg (acc (ix3 0 b o) + ·) (Finset.sum_congr rfl fun h _ => Finset.sum_congr rfl fun w _ => ?_)
  rw [mulf_apply, pay7_apply]

/-- indicator -/
theorem pay13_apply (v9 : Vec Ideal S2x1x128x256 .i32) (acc : Vec Ideal S1x2x13 .f32) (b : Fin 2) (o : Fin 13) :
    k0_pay13 (k0_pay8 v9) acc (ix3 0 b o)
      = acc (ix3 0 b o) + ∑ h : Fin 128, ∑ w : Fin 256, hotWord (v9 (ix4 b 0 h w)) o := by
  unfold k0_pay13
  refine (accumulate_apply acc (k0_pay8 v9) b o).trans ?_
  refine congrArg (acc (ix3 0 b o) + ·) (Finset.sum_congr rfl fun h _ => Finset.sum_congr rfl fun w _ => ?_)
  rw [pay8_apply]

end Cert.KernelIdeal.Tile

end
-- ==== Proof.RunSum.lean ====
/-
  A quantity indexed by the steps of a grid that is RESET to that step's addend at every multiple of 48 and
  otherwise is the previous step's value plus the step's addend is, at step `n`, the sum of the addends of the
  steps `48 (n / 48) … n` of its run.
-/
import Mathlib.Algebra.BigOperators.Group.Finset.Basic
import Mathlib.Algebra.BigOperators.Intervals

namespace Cert.RunSum

open Finset

theorem sum_of_reset_step {β : Type*} [AddCommMonoid β] {N : ℕ} (f : (n : ℕ) → n < N → β) (M : ℕ → β)
    (hreset : ∀ (n : ℕ) (h : n < N), n % 48 = 0 → f n h = M n)
    (hstep : ∀ (n : ℕ) (h : n + 1 < N), ¬(n + 1) % 48 = 0 → f (n + 1) h = f n (Nat.lt_of_succ_lt h) + M (n + 1)) :
    ∀ (n : ℕ) (h : n < N), f n h = ∑ s ∈ range (n % 48 + 1), M (48 * (n / 48) + s)
  | 0, h => by
    rw [hreset 0 h rfl]; simp
  | n + 1, h => by
    by_cases h0 : (n + 1) % 48 = 0
    · rw [hreset (n + 1) h h0, h0, Finset.sum_range_one]
      congr 1; omega
    · rw [hstep n h h0, sum_of_reset_step f M hreset hstep n (Nat.lt_of_succ_lt h)]
      have e1 : (n + 1) % 48 = n % 48 + 1 := by omega
      have e2 : (n + 1) / 48 = n / 48 := by omega
      rw [e1, e2, Finset.sum_range_succ _ (n % 48 + 1)]
      congr 2; omega

end Cert.RunSum
-- ==== Proof.KernelChain.lean ====
/-
  The five running sums along a run of 48 grid steps. At a run's first step each output's staging buffer is left
  at that step's tile sum (zero plus it); at every later step at what the step before left plus the step's tile
  sum. So after the last step of run `cc` the buffer holds the sum of the tile sums of steps `48 cc … 48 cc + 47`.
  All at the ideal instance, entry by entry of the (batch, organ) table.
-/
import proofs.«141704_j80470507258049_1_alg».proof.Proof.Gen.KernelIdeal.Frame
import proofs.«141704_j80470507258049_1_alg».proof.Proof.KernelPieces
import proofs.«141704_j80470507258049_1_alg».proof.Proof.KernelTile
import proofs.«141704_j80470507258049_1_alg».proof.Proof.KernelBlocks
import proofs.«141704_j80470507258049_1_alg».proof.Proof.KernelFinal
import proofs.«141704_j80470507258049_1_alg».proof.Proof.Spec
import proofs.«141704_j80470507258049_1_alg».proof.Proof.RunSum

noncomputable section

namespace Cert.KernelIdeal.Chain

open Cert.KernelIdeal Cert.KernelIdeal.Gen Cert.KernelIdeal.Blocks Cert.KernelIdeal.Pieces Cert.KernelIdeal.Tile
open Cert.KernelIdeal.Final (lastOfRun_lt)
open Cert.Dice
open Idealize.ShloMosaic Idealize.ShloMosaic.TcCoe Idealize.ShloMosaic.ValueIdx Idealize.SL.Sem Finset

variable (m : (ℓ : Loc nD τ sig) → Buf (Elt Ideal) ℓ)

/-- The three argument arrays as the region finds them, at their literal types. -/
abbrev pred0 (c : Dev nD) : SPred.Idx → EReal := V m c main_arg0
abbrev pred1 (c : Dev nD) : SPred.Idx → EReal := V m c main_arg1
abbrev lab (c : Dev nD) : SLab.Idx → BitVec 32 := V m c main_arg2

/-! ## One step's payloads over the staged blocks are the accumulator plus the step's tile sum -/

theorem step_prod0 (c : Dev nD) (t : Fin cfg0.N) (acc : Vec Ideal S1x2x13 .f32) (b : Fin 2) (o : Fin 13) :
    k0_pay9 (chans (iblk m c 0 t)) (iblk m c 2 t) acc (ix3 0 b o)
      = acc (ix3 0 b o) + tileProd (pred0 m c) (lab m c) t.val (ix2 b o) := by
  refine (pay9_apply (chans (iblk m c 0 t)) (iblk m c 2 t) acc b o).trans ?_
  refine congrArg (acc (ix3 0 b o) + ·) ?_
  unfold tileProd
  refine Finset.sum_congr rfl fun h _ => Finset.sum_congr rfl fun w _ => ?_
  rw [chans_pred0 m c t b o h w, labels m c t b h w]

theorem step_sq0 (c : Dev nD) (t : Fin cfg0.N) (acc : Vec Ideal S1x2x13 .f32) (b : Fin 2) (o : Fin 13) :
    k0_pay10 (k0_pay6 (chans (iblk m c 0 t))) acc (ix3 0 b o)
      = acc (ix3 0 b o) + tileSq (pred0 m c) t.val (ix2 b o) := by
  refine (pay10_apply (chans (iblk m c 0 t)) acc b o).trans ?_
  refine congrArg (acc (ix3 0 b o) + ·) ?_
  unfold tileSq
  refine Finset.sum_congr rfl fun h _ => Finset.sum_congr rfl fun w _ => ?_
  rw [chans_pred0 m c t b o h w]

theorem step_prod1 (c : Dev nD) (t : Fin cfg0.N) (acc : Vec Ideal S1x2x13 .f32) (b : Fin 2) (o : Fin 13) :
    k0_pay11 (k0_pay7 (chans (iblk m c 1 t))) (k0_pay8 (iblk m c 2 t)) acc (ix3 0 b o)
      = acc (ix3 0 b o) + tileProd (pred1 m c) (lab m c) t.val (ix2 b o) := by
  refine (pay11_apply (chans (iblk m c 1 t)) (iblk m c 2 t) acc b o).trans ?_
  refine congrArg (acc (ix3 0 b o) + ·) ?_
  unfold tileProd
  refine Finset.sum_congr rfl fun h _ => Finset.sum_congr rfl fun w _ => ?_
  rw [chans_pred1 m c t b o h w, labels m c t b h w]

theorem step_sq1 (c : Dev nD) (t : Fin cfg0.N) (acc : Vec Ideal S1x2x13 .f32) (b : Fin 2) (o : Fin 13) :
    k0_pay12 (k0_pay7 (chans (iblk m c 1 t))) acc (ix3 0 b o)
      = acc (ix3 0 b o) + tileSq (pred1 m c) t.val (ix2 b o) := by
  refine (pay12_apply (chans (iblk m c 1 t)) acc b o).trans ?_
  refine congrArg (acc (ix3 0 b o) + ·) ?_
  unfold tileSq
  refine Finset.sum_congr rfl fun h _ => Finset.sum_congr rfl fun w _ => ?_
  rw [chans_pred1 m c t b o h w]

theorem step_hot (c : Dev nD) (t : Fin cfg0.N) (acc : Vec Ideal S1x2x13 .f32) (b : Fin 2) (o : Fin 13) :
    k0_pay13 (k0_pay8 (iblk m c 2 t)) acc (ix3 0 b o)
      = acc (ix3 0 b o) + tileHot (lab m c) t.val (ix2 b o) := by
  refine (pay13_apply (iblk m c 2 t) acc b o).trans ?_
  refine congrArg (acc (ix3 0 b o) + ·) ?_
  unfold tileHot
  refine Finset.sum_congr rfl fun h _ => Finset.sum_congr rfl fun w _ => ?_
  rw [labels m c t b h w]

/-! ## The two cases of a step -/

theorem prev_lt (t : Fin cfg0.N) : t.val - 1 < cfg0.N := Nat.lt_of_le_of_lt (Nat.sub_le _ _) t.isLt

/-- A run's first step leaves each buffer at the step's tile sum. -/
theorem at_reset (c : Dev nD) (t : Fin cfg0.N) (h0 : t.val % 48 = 0) (b : Fin 2) (o : Fin 13) :
    (outsAt0 m c t.val t.isLt).1 (ix3 0 b o) = tileProd (pred0 m c) (lab m c) t.val (ix2 b o)
    ∧ (outsAt0 m c t.val t.isLt).2.1 (ix3 0 b o) = tileSq (pred0 m c) t.val (ix2 b o)
    ∧ (outsAt0 m c t.val t.isLt).2.2.1 (ix3 0 b o) = tileProd (pred1 m c) (lab m c) t.val (ix2 b o)
    ∧ (outsAt0 m c t.val t.isLt).2.2.2.1 (ix3 0 b o) = tileSq (pred1 m c) t.val (ix2 b o)
    ∧ (outsAt0 m c t.val t.isLt).2.2.2.2 (ix3 0 b o) = tileHot (lab m c) t.val (ix2 b o) := by
  rw [outsAt0_A m c t h0]
  dsimp only
  refine ⟨?_, ?_, ?_, ?_, ?_⟩
  · refine (congrFun (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)) (ix3 0 b o)).trans ?_
    refine (step_prod0 m c t (k0_pay1 (F := Ideal)) b o).trans ?_
    rw [pay1_apply, zero_add]
  · refine (congrFun (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)) (ix3 0 b o)).trans ?_
    refine (step_sq0 m c t (k0_pay2 (F := Ideal)) b o).trans ?_
    rw [pay2_apply, zero_add]
  · refine (congrFun (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)) (ix3 0 b o)).trans ?_
    refine (step_prod1 m c t (k0_pay3 (F := Ideal)) b o).trans ?_
    rw [pay3_apply, zero_add]
  · refine (congrFun (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)) (ix3 0 b o)).trans ?_
    refine (step_sq1 m c t (k0_pay4 (F := Ideal)) b o).trans ?_
    rw [pay4_apply, zero_add]
  · refine (congrFun (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)) (ix3 0 b o)).trans ?_
    refine (step_hot m c t (k0_pay5 (F := Ideal)) b o).trans ?_
    rw [pay5_apply, zero_add]

/-- A later step leaves each buffer at what the step before left plus the step's tile sum. -/
theorem at_step (c : Dev nD) (t : Fin cfg0.N) (hB : ¬t.val % 48 = 0) (b : Fin 2) (o : Fin 13) :
    (outsAt0 m c t.val t.isLt).1 (ix3 0 b o)
        = (outsAt0 m c (t.val - 1) (prev_lt t)).1 (ix3 0 b o) + tileProd (pred0 m c) (lab m c) t.val (ix2 b o)
    ∧ (outsAt0 m c t.val t.isLt).2.1 (ix3 0 b o)
        = (outsAt0 m c (t.val - 1) (prev_lt t)).2.1 (ix3 0 b o) + tileSq (pred0 m c) t.val (ix2 b o)
    ∧ (outsAt0 m c t.val t.isLt).2.2.1 (ix3 0 b o)
        = (outsAt0 m c (t.val - 1) (prev_lt t)).2.2.1 (ix3 0 b o) + tileProd (pred1 m c) (lab m c) t.val (ix2 b o)
    ∧ (outsAt0 m c t.val t.isLt).2.2.2.1 (ix3 0 b o)
        = (outsAt0 m c (t.val - 1) (prev_lt t)).2.2.2.1 (ix3 0 b o) + tileSq (pred1 m c) t.val (ix2 b o)
    ∧ (outsAt0 m c t.val t.isLt).2.2.2.2 (ix3 0 b o)
        = (outsAt0 m c (t.val - 1) (prev_lt t)).2.2.2.2 (ix3 0 b o) + tileHot (lab m c) t.val (ix2 b o) := by
  rw [outsAt0_B m c t hB]
  dsimp only
  generalize outsAt0 m c (t.val - 1) _ = prev
  refine ⟨?_, ?_, ?_, ?_, ?_⟩
  · refine (congrFun (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk m c 0 t) (iblk m c 1 t) (iblk m c 2 t) prev.1 prev.2.1 prev.2.2.1 prev.2.2.2.1 prev.2.2.2.2) (ix3 0 b o)).trans ?_
    exact step_prod0 m c t prev.1 b o
  · refine (congrFun (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk m c 0 t) (iblk m c 1 t) (iblk m c 2 t) prev.1 prev.2.1 prev.2.2.1 prev.2.2.2.1 prev.2.2.2.2) (ix3 0 b o)).trans ?_
    exact step_sq0 m c t prev.2.1 b o
  · refine (congrFun (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk m c 0 t) (iblk m c 1 t) (iblk m c 2 t) prev.1 prev.2.1 prev.2.2.1 prev.2.2.2.1 prev.2.2.2.2) (ix3 0 b o)).trans ?_
    exact step_prod1 m c t prev.2.2.1 b o
  · refine (congrFun (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk m c 0 t) (iblk m c 1 t) (iblk m c 2 t) prev.1 prev.2.1 prev.2.2.1 prev.2.2.2.1 prev.2.2.2.2) (ix3 0 b o)).trans ?_
    exact step_sq1 m c t prev.2.2.2.1 b o
  · refine (congrFun (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hB ((hcond0_0 t).mp h)) (iblk m c 0 t) (iblk m c 1 t) (iblk m c 2 t) prev.1 prev.2.1 prev.2.2.1 prev.2.2.2.1 prev.2.2.2.2) (ix3 0 b o)).trans ?_
    exact step_hot m c t prev.2.2.2.2 b o

/-! ## After a run's last step: the run's 48 tile sums added up -/

theorem total_3 (c : Dev nD) (cc : Fin 2) (b : Fin 2) (o : Fin 13) :
    (outsAt0 m c (48 * cc.val + 47) (lastOfRun_lt cc)).1 (ix3 0 b o)
      = ∑ s ∈ range 48, tileProd (pred0 m c) (lab m c) (48 * cc.val + s) (ix2 b o) := by
  have hcc := cc.isLt
  have key := RunSum.sum_of_reset_step (N := cfg0.N)
    (fun n h => (outsAt0 m c n h).1 (ix3 0 b o)) (fun n => tileProd (pred0 m c) (lab m c) n (ix2 b o))
    (fun n h h0 => (at_reset m c ⟨n, h⟩ h0 b o).1)
    (fun n h hB => (at_step m c ⟨n + 1, h⟩ hB b o).1)
    (48 * cc.val + 47) (lastOfRun_lt cc)
  rw [show (48 * cc.val + 47) % 48 + 1 = 48 from by omega, show (48 * cc.val + 47) / 48 = cc.val from by omega] at key
  exact key

theorem total_4 (c : Dev nD) (cc : Fin 2) (b : Fin 2) (o : Fin 13) :
    (outsAt0 m c (48 * cc.val + 47) (lastOfRun_lt cc)).2.1 (ix3 0 b o)
      = ∑ s ∈ range 48, tileSq (pred0 m c) (48 * cc.val + s) (ix2 b o) := by
  have hcc := cc.isLt
  have key := RunSum.sum_of_reset_step (N := cfg0.N)
    (fun n h => (outsAt0 m c n h).2.1 (ix3 0 b o)) (fun n => tileSq (pred0 m c) n (ix2 b o))
    (fun n h h0 => (at_reset m c ⟨n, h⟩ h0 b o).2.1)
    (fun n h hB => (at_step m c ⟨n + 1, h⟩ hB b o).2.1)
    (48 * cc.val + 47) (lastOfRun_lt cc)
  rw [show (48 * cc.val + 47) % 48 + 1 = 48 from by omega, show (48 * cc.val + 47) / 48 = cc.val from by omega] at key
  exact key

theorem total_5 (c : Dev nD) (cc : Fin 2) (b : Fin 2) (o : Fin 13) :
    (outsAt0 m c (48 * cc.val + 47) (lastOfRun_lt cc)).2.2.1 (ix3 0 b o)
      = ∑ s ∈ range 48, tileProd (pred1 m c) (lab m c) (48 * cc.val + s) (ix2 b o) := by
  have hcc := cc.isLt
  have key := RunSum.sum_of_reset_step (N := cfg0.N)
    (fun n h => (outsAt0 m c n h).2.2.1 (ix3 0 b o)) (fun n => tileProd (pred1 m c) (lab m c) n (ix2 b o))
    (fun n h h0 => (at_reset m c ⟨n, h⟩ h0 b o).2.2.1)
    (fun n h hB => (at_step m c ⟨n + 1, h⟩ hB b o).2.2.1)
    (48 * cc.val + 47) (lastOfRun_lt cc)
  rw [show (48 * cc.val + 47) % 48 + 1 = 48 from by omega, show (48 * cc.val + 47) / 48 = cc.val from by omega] at key
  exact key

theorem total_6 (c : Dev nD) (cc : Fin 2) (b : Fin 2) (o : Fin 13) :
    (outsAt0 m c (48 * cc.val + 47) (lastOfRun_lt cc)).2.2.2.1 (ix3 0 b o)
      = ∑ s ∈ range 48, tileSq (pred1 m c) (48 * cc.val + s) (ix2 b o) := by
  have hcc := cc.isLt
  have key := RunSum.sum_of_reset_step (N := cfg0.N)
    (fun n h => (outsAt0 m c n h).2.2.2.1 (ix3 0 b o)) (fun n => tileSq (pred1 m c) n (ix2 b o))
    (fun n h h0 => (at_reset m c ⟨n, h⟩ h0 b o).2.2.2.1)
    (fun n h hB => (at_step m c ⟨n + 1, h⟩ hB b o).2.2.2.1)
    (48 * cc.val + 47) (lastOfRun_lt cc)
  rw [show (48 * cc.val + 47) % 48 + 1 = 48 from by omega, show (48 * cc.val + 47) / 48 = cc.val from by omega] at key
  exact key

theorem total_7 (c : Dev nD) (cc : Fin 2) (b : Fin 2) (o : Fin 13) :
    (outsAt0 m c (48 * cc.val + 47) (lastOfRun_lt cc)).2.2.2.2 (ix3 0 b o)
      = ∑ s ∈ range 48, tileHot (lab m c) (48 * cc.val + s) (ix2 b o) := by
  have hcc := cc.isLt
  have key := RunSum.sum_of_reset_step (N := cfg0.N)
    (fun n h => (outsAt0 m c n h).2.2.2.2 (ix3 0 b o)) (fun n => tileHot (lab m c) n (ix2 b o))
    (fun n h h0 => (at_reset m c ⟨n, h⟩ h0 b o).2.2.2.2)
    (fun n h hB => (at_step m c ⟨n + 1, h⟩ hB b o).2.2.2.2)
    (48 * cc.val + 47) (lastOfRun_lt cc)
  rw [show (48 * cc.val + 47) % 48 + 1 = 48 from by omega, show (48 * cc.val + 47) / 48 = cc.val from by omega] at key
  exact key

end Cert.KernelIdeal.Chain

end
-- ==== Proof.Tiles.lean ====
/-
  The steps' shares add up: the 96 steps, taken as two runs of 48, tile depth × height exactly once.
-/
import proofs.«141704_j80470507258049_1_alg».proof.Proof.Spec
import proofs.«141704_j80470507258049_1_alg».proof.Proof.Regroup

noncomputable section

namespace Cert.Dice

open Idealize.ShloMosaic Idealize.ShloMosaic.ValueIdx Finset

/-- A function of (depth, row, column) summed step by step, run by run, is its sum over the volume. -/
theorem sum_runs_steps (g : Fin 48 → Fin 256 → Fin 256 → EReal) :
    ∑ c : Fin 2, ∑ s ∈ range 48, ∑ h : Fin 128, ∑ w : Fin 256, g (stepDepth (48 * c.val + s)) (stepRow (48 * c.val + s) h) w
      = ∑ d : Fin 48, ∑ h : Fin 256, ∑ w : Fin 256, g d h w := by
  rw [Regroup.sum_runs (fun n => ∑ h : Fin 128, ∑ w : Fin 256, g (stepDepth n) (stepRow n h) w)]
  exact Regroup.sum_steps_tiles g (fun t => stepDepth t.val) (fun t h => stepRow t.val h)
    (fun t => stepDepth_val t.isLt) (fun t h => stepRow_val t.val h)

theorem sum_tileProd (x : SPred.Idx → EReal) (y : SLab.Idx → BitVec 32) (j : SOrg.Idx) :
    ∑ c : Fin 2, ∑ s ∈ range 48, tileProd x y (48 * c.val + s) j = sumProd x y j :=
  sum_runs_steps fun d h w => x (ix5 (j 0) (chan (j 1)) d h w) * hotWord (y (ix4 (j 0) d h w)) (j 1)

theorem sum_tileSq (x : SPred.Idx → EReal) (j : SOrg.Idx) :
    ∑ c : Fin 2, ∑ s ∈ range 48, tileSq x (48 * c.val + s) j = sumSq x j :=
  sum_runs_steps fun d h w => x (ix5 (j 0) (chan (j 1)) d h w) * x (ix5 (j 0) (chan (j 1)) d h w)

theorem sum_tileHot (y : SLab.Idx → BitVec 32) (j : SOrg.Idx) :
    ∑ c : Fin 2, ∑ s ∈ range 48, tileHot y (48 * c.val + s) j = sumHot y j :=
  sum_runs_steps fun d h w => hotWord (y (ix4 (j 0) d h w)) (j 1)

end Cert.Dice

end
-- ==== Proof.KernelSums.lean ====
/-
  Each output array summed over its two rows is the specification's sum over the whole volume: row `cc` holds
  the 48 tile sums of run `cc`, and the 96 tiles cover depth × height exactly once.
-/
import proofs.«141704_j80470507258049_1_alg».proof.Proof.Gen.KernelIdeal.Frame
import proofs.«141704_j80470507258049_1_alg».proof.Proof.KernelChain
import proofs.«141704_j80470507258049_1_alg».proof.Proof.KernelFinal
import proofs.«141704_j80470507258049_1_alg».proof.Proof.KernelRun
import proofs.«141704_j80470507258049_1_alg».proof.Proof.Tiles
import Idealize.ShloMosaic.PureOps.Ideal.Laws

noncomputable section

namespace Cert.KernelIdeal.Sums

open Cert.KernelIdeal Cert.KernelIdeal.Gen Cert.KernelIdeal.Final Cert.KernelIdeal.Chain Cert.KernelIdeal.Run Cert.Dice
open Idealize.ShloMosaic Idealize.ShloMosaic.TcCoe Idealize.ShloMosaic.ValueIdx Idealize.SL.Sem Finset

variable (m : (ℓ : Loc nD τ sig) → Buf (Elt Ideal) ℓ)

/-- The host's sum over axis 0 of a [2, 2, 13] array, from zero, at (b, o): the two rows' entries added. -/
theorem rowSum_apply (A : FVec Ideal S2x2x13 .f32) (b : Fin 2) (o : Fin 13) :
    rowSum A (ix2 b o) = ∑ k : Fin 2, A (ix3 k b o) := by
  have h : S2x2x13.Reduces [0] S2x13 := by decide
  show Host.reduceAdd A _ _ _ (ix2 b o) = _
  simp only [Host.reduceAdd, Ideal.hostReduceAdd_def]
  rw [Ideal.hostReduceAdd_single Facts₀.reducesTo_S2x2x13_S2x13_d0 h]
  rw [show (constant (F := Ideal) S_ .f32 0x00000000#32) (Shape.Idx.first Facts₀.h_S_) = 0 from Ideal.ofBits_zero_f32, zero_add]
  refine Finset.sum_congr rfl fun k _ => congrArg A ?_
  funext a
  match a with
  | ⟨0, _⟩ => rfl
  | ⟨1, _⟩ => rfl
  | ⟨2, _⟩ => rfl

theorem rowSum3_eq (c : Dev nD) : rowSum (F := Ideal) (rows3 m c) = sumProd (pred0 m c) (lab m c) := by
  funext j
  obtain ⟨b, o, rfl⟩ : ∃ (b : Fin 2) (o : Fin 13), j = ix2 b o := ⟨j 0, j 1, eq_ix2 j⟩
  rw [rowSum_apply]
  refine (Finset.sum_congr rfl fun k _ => total_3 m c k b o).trans ?_
  exact sum_tileProd (pred0 m c) (lab m c) (ix2 b o)

theorem rowSum4_eq (c : Dev nD) : rowSum (F := Ideal) (rows4 m c) = sumSq (pred0 m c) := by
  funext j
  obtain ⟨b, o, rfl⟩ : ∃ (b : Fin 2) (o : Fin 13), j = ix2 b o := ⟨j 0, j 1, eq_ix2 j⟩
  rw [rowSum_apply]
  refine (Finset.sum_congr rfl fun k _ => total_4 m c k b o).trans ?_
  exact sum_tileSq (pred0 m c) (ix2 b o)

theorem rowSum5_eq (c : Dev nD) : rowSum (F := Ideal) (rows5 m c) = sumProd (pred1 m c) (lab m c) := by
  funext j
  obtain ⟨b, o, rfl⟩ : ∃ (b : Fin 2) (o : Fin 13), j = ix2 b o := ⟨j 0, j 1, eq_ix2 j⟩
  rw [rowSum_apply]
  refine (Finset.sum_congr rfl fun k _ => total_5 m c k b o).trans ?_
  exact sum_tileProd (pred1 m c) (lab m c) (ix2 b o)

theorem rowSum6_eq (c : Dev nD) : rowSum (F := Ideal) (rows6 m c) = sumSq (pred1 m c) := by
  funext j
  obtain ⟨b, o, rfl⟩ : ∃ (b : Fin 2) (o : Fin 13), j = ix2 b o := ⟨j 0, j 1, eq_ix2 j⟩
  rw [rowSum_apply]
  refine (Finset.sum_congr rfl fun k _ => total_6 m c k b o).trans ?_
  exact sum_tileSq (pred1 m c) (ix2 b o)

theorem rowSum7_eq (c : Dev nD) : rowSum (F := Ideal) (rows7 m c) = sumHot (lab m c) := by
  funext j
  obtain ⟨b, o, rfl⟩ : ∃ (b : Fin 2) (o : Fin 13), j = ix2 b o := ⟨j 0, j 1, eq_ix2 j⟩
  rw [rowSum_apply]
  refine (Finset.sum_congr rfl fun k _ => total_7 m c k b o).trans ?_
  exact sum_tileHot (lab m c) (ix2 b o)

/-- The kernel's result is the shared arithmetic of the specification's five sums of its own arguments. -/
theorem result_eq (c : Dev nD) :
    Cert.KernelIdeal.Run.result (F := Ideal) m c
      = diceTail Facts₀.bcast_S_S2x13 Facts₀.bcast_S_S2 Facts₀.reducesTo_S2x13_S2_d1 Facts₀.reducesTo_S2_S_d0 Facts₀.h_S_
          (sumProd (pred0 m c) (lab m c)) (sumSq (pred0 m c)) (sumHot (lab m c))
          (sumProd (pred1 m c) (lab m c)) (sumSq (pred1 m c)) (sumHot (lab m c)) := by
  show diceTail _ _ _ _ _ (rowSum (F := Ideal) (rows3 m c)) (rowSum (F := Ideal) (rows4 m c)) (rowSum (F := Ideal) (rows7 m c))
    (rowSum (F := Ideal) (rows5 m c)) (rowSum (F := Ideal) (rows6 m c)) (rowSum (F := Ideal) (rows7 m c)) = _
  rw [rowSum3_eq, rowSum4_eq, rowSum5_eq, rowSum6_eq, rowSum7_eq]

end Cert.KernelIdeal.Sums

end
-- ==== Proof.RefSums.lean ====
/-
  The reference's six sums over depth × height × width are the specification's sums.
-/
import proofs.«141704_j80470507258049_1_alg».proof.Proof.Gen.ReferenceIdeal.Run
import proofs.«141704_j80470507258049_1_alg».proof.Proof.Gen.ReferenceIdeal.Read
import proofs.«141704_j80470507258049_1_alg».proof.Proof.Spec
import proofs.«141704_j80470507258049_1_alg».proof.Proof.Regroup
import Idealize.ShloMosaic.Lib.Pipeline.Value
import Idealize.ShloMosaic.PureOps.Ideal.Laws

noncomputable section

namespace Cert.ReferenceIdeal.Sums

open Cert.ReferenceIdeal Cert.ReferenceIdeal.Gen Cert.ReferenceIdeal.Read Cert.Dice
open Idealize.ShloMosaic Idealize.ShloMosaic.TcCoe Idealize.ShloMosaic.ValueIdx

/-- A prediction array and a label array, as the reference's buffers hold them at the ideal instance. -/
abbrev Pred := (⟨S2x14x48x256x256, .f32⟩ : BufTy).Contents (Elt Ideal)
abbrev Lab := (⟨S2x48x256x256, .i32⟩ : BufTy).Contents (Elt Ideal)

/-- The (depth, height, width) box that parametrises one (batch, organ) fibre of the five-axis array. -/
abbrev Box := Fin 48 × Fin 256 × Fin 256

/-- The point of the fibre above (b, o) with box coordinates k. -/
abbrev boxIdx (b : Fin 2) (o : Fin 13) (k : Box) : S2x13x48x256x256.Idx := ix5 b o k.1 k.2.1 k.2.2

/-- Dropping axes 2, 3, 4 of an index keeps its coordinates 0 and 1. -/
theorem drop_ix2 (hr : S2x13x48x256x256.ReducesTo [2, 3, 4] S2x13) (i : S2x13x48x256x256.Idx) :
    hr.drop i = ix2 (⟨(i 0).val, (i 0).isLt⟩ : Fin 2) (⟨(i 1).val, (i 1).isLt⟩ : Fin 13) := by
  funext a
  match a with
  | ⟨0, _⟩ => exact Fin.ext (Shape.ReducesTo.drop_apply_val_of_eq hr i ⟨0, by decide⟩ 0)
  | ⟨1, _⟩ => exact Fin.ext (Shape.ReducesTo.drop_apply_val_of_eq hr i ⟨1, by decide⟩ 1)

/-- The host's sum over axes 2, 3, 4 from the initial value 0, read at (b, o): the indices that drop to (b, o) are
    exactly (b, o, d, h, w), one for each point of the box, so the sum is the triple sum over depth, height, width. -/
theorem reduce_box (hr : S2x13x48x256x256.ReducesTo [2, 3, 4] S2x13) (src : S2x13x48x256x256.Idx → EReal)
    (b : Fin 2) (o : Fin 13) :
    Ideal.hostReduceAdd hr src 0 (ix2 b o) = ∑ d : Fin 48, ∑ h : Fin 256, ∑ w : Fin 256, src (ix5 b o d h w) := by
  unfold Ideal.hostReduceAdd
  rw [zero_add, Cert.Regroup.sum_fibre hr.drop (ix2 b o) (boxIdx b o) ?inj ?drop ?surj src,
    Fintype.sum_prod_type]
  · exact Finset.sum_congr rfl fun d _ => Fintype.sum_prod_type _
  case inj =>
    intro k k' e
    have e2 : k.1 = k'.1 := by have := congrFun e (2 : Fin 5); exact this
    have e3 : k.2.1 = k'.2.1 := by have := congrFun e (3 : Fin 5); exact this
    have e4 : k.2.2 = k'.2.2 := by have := congrFun e (4 : Fin 5); exact this
    exact Prod.ext e2 (Prod.ext e3 e4)
  case drop =>
    intro k
    rw [drop_ix2]
  case surj =>
    intro i hi
    rw [drop_ix2] at hi
    have h0 : (⟨(i 0).val, (i 0).isLt⟩ : Fin 2) = b := by have := congrFun hi (0 : Fin 2); exact this
    have h1 : (⟨(i 1).val, (i 1).isLt⟩ : Fin 13) = o := by have := congrFun hi (1 : Fin 2); exact this
    refine ⟨(⟨(i 2).val, (i 2).isLt⟩, ⟨(i 3).val, (i 3).isLt⟩, ⟨(i 4).val, (i 4).isLt⟩), ?_⟩
    subst h0 h1
    funext a
    match a with
    | ⟨0, _⟩ => rfl
    | ⟨1, _⟩ => rfl
    | ⟨2, _⟩ => rfl
    | ⟨3, _⟩ => rfl
    | ⟨4, _⟩ => rfl

/-- The host's float sum over axes 2, 3, 4 whose initial value is the f32 word 0, read at (b, o): the initial value
    is the extended real 0, and what is left is the triple sum over the box. -/
theorem host_sum_box (hr : S2x13x48x256x256.ReducesTo [2, 3, 4] S2x13) (hu : 0 < S_.numel)
    (src : (⟨S2x13x48x256x256, .f32⟩ : BufTy).Contents (Elt Ideal)) (init : (⟨S_, .f32⟩ : BufTy).Contents (Elt Ideal))
    (hinit : ∀ i, init i = FloatOps.ofBits (F := Ideal) .f32 0x00000000#32) (b : Fin 2) (o : Fin 13) :
    Host.reduceAdd (F := Ideal) (φ := .f32) src init hr hu (ix2 b o)
      = ∑ d : Fin 48, ∑ h : Fin 256, ∑ w : Fin 256, src (ix5 b o d h w) := by
  simp only [Host.reduceAdd, Ideal.hostReduceAdd_def]
  rw [hinit]
  show Ideal.hostReduceAdd hr src (Ideal.ofBits .f32 0x00000000#32) (ix2 b o) = _
  rw [Ideal.ofBits_zero_f32]
  exact reduce_box hr src b o

/-- The indicator array at (b, o, d, h, w): the label word at (b, d, h, w) compared with organ o's label 1 + o,
    converted unsigned, is the specification's indicator. -/
theorem hot_apply (y : Lab) (b : Fin 2) (o : Fin 13) (d : Fin 48) (h w : Fin 256) :
    val_main_v8 (F := Ideal) y (ix5 b o d h w) = hotWord (y (ix4 b d h w)) o := by
  rw [val_main_v8_apply, val_main_v7_apply, val_main_v5_apply, val_main_v3_apply, val_main_v6_apply,
    val_main_v4_apply, val_main_v2_apply, val_main_v1_apply, val_main_v0_apply, val_main_c_apply]
  have e : idx_main_v3 (idx_main_v5 (ix5 b o d h w)) = ix4 b d h w := by
    funext a
    match a with
    | ⟨0, _⟩ => rfl
    | ⟨1, _⟩ => rfl
    | ⟨2, _⟩ => rfl
    | ⟨3, _⟩ => rfl
  rw [e]
  exact uitofp_cmpi_eq (y (ix4 b d h w)) o

/-- Channels 1 to 13 of a prediction array at (b, o, d, h, w): the array at channel 1 + o. -/
theorem chan_index (b : Fin 2) (o : Fin 13) (d : Fin 48) (h w : Fin 256) :
    idx_main_v9 (ix5 b o d h w) = ix5 b (chan o) d h w := by
  funext a
  match a with
  | ⟨0, _⟩ => rfl
  | ⟨1, _⟩ => rfl
  | ⟨2, _⟩ => rfl
  | ⟨3, _⟩ => rfl
  | ⟨4, _⟩ => rfl

/-- The first prediction array's organ slice at (b, o, d, h, w) is the array at (b, 1 + o, d, h, w). -/
theorem slice0_apply (x : Pred) (b : Fin 2) (o : Fin 13) (d : Fin 48) (h w : Fin 256) :
    val_main_v9 (F := Ideal) x (ix5 b o d h w) = x (ix5 b (chan o) d h w) := by
  rw [val_main_v9_apply]
  exact congrArg x (chan_index b o d h w)

/-- The second prediction array's organ slice at (b, o, d, h, w) is the array at (b, 1 + o, d, h, w). -/
theorem slice1_apply (x : Pred) (b : Fin 2) (o : Fin 13) (d : Fin 48) (h w : Fin 256) :
    val_main_v24 (F := Ideal) x (ix5 b o d h w) = x (ix5 b (chan o) d h w) := by
  rw [val_main_v24_apply]
  exact congrArg x (chan_index b o d h w)

theorem v11_eq (x : Pred) (y : Lab) : val_main_v11 (F := Ideal) x y = sumProd x y := by
  funext j
  obtain ⟨b, o, rfl⟩ : ∃ b o, j = ix2 b o := ⟨j 0, j 1, eq_ix2 j⟩
  unfold val_main_v11
  refine (host_sum_box _ _ _ _ val_main_cst_apply b o).trans ?_
  refine Finset.sum_congr rfl fun d _ => Finset.sum_congr rfl fun h _ => Finset.sum_congr rfl fun w _ => ?_
  rw [val_main_v10_apply, slice0_apply, hot_apply]
  rfl

theorem v13_eq (x : Pred) : val_main_v13 (F := Ideal) x = sumSq x := by
  funext j
  obtain ⟨b, o, rfl⟩ : ∃ b o, j = ix2 b o := ⟨j 0, j 1, eq_ix2 j⟩
  unfold val_main_v13
  refine (host_sum_box _ _ _ _ val_main_cst_0_apply b o).trans ?_
  refine Finset.sum_congr rfl fun d _ => Finset.sum_congr rfl fun h _ => Finset.sum_congr rfl fun w _ => ?_
  rw [val_main_v12_apply, slice0_apply]
  rfl

theorem v14_eq (y : Lab) : val_main_v14 (F := Ideal) y = sumHot y := by
  funext j
  obtain ⟨b, o, rfl⟩ : ∃ b o, j = ix2 b o := ⟨j 0, j 1, eq_ix2 j⟩
  unfold val_main_v14
  refine (host_sum_box _ _ _ _ val_main_cst_1_apply b o).trans ?_
  refine Finset.sum_congr rfl fun d _ => Finset.sum_congr rfl fun h _ => Finset.sum_congr rfl fun w _ => ?_
  rw [hot_apply]

theorem v26_eq (x : Pred) (y : Lab) : val_main_v26 (F := Ideal) x y = sumProd x y := by
  funext j
  obtain ⟨b, o, rfl⟩ : ∃ b o, j = ix2 b o := ⟨j 0, j 1, eq_ix2 j⟩
  unfold val_main_v26
  refine (host_sum_box _ _ _ _ val_main_cst_6_apply b o).trans ?_
  refine Finset.sum_congr rfl fun d _ => Finset.sum_congr rfl fun h _ => Finset.sum_congr rfl fun w _ => ?_
  rw [val_main_v25_apply, slice1_apply, hot_apply]
  rfl

theorem v28_eq (x : Pred) : val_main_v28 (F := Ideal) x = sumSq x := by
  funext j
  obtain ⟨b, o, rfl⟩ : ∃ b o, j = ix2 b o := ⟨j 0, j 1, eq_ix2 j⟩
  unfold val_main_v28
  refine (host_sum_box _ _ _ _ val_main_cst_7_apply b o).trans ?_
  refine Finset.sum_congr rfl fun d _ => Finset.sum_congr rfl fun h _ => Finset.sum_congr rfl fun w _ => ?_
  rw [val_main_v27_apply, slice1_apply]
  rfl

theorem v29_eq (y : Lab) : val_main_v29 (F := Ideal) y = sumHot y := by
  funext j
  obtain ⟨b, o, rfl⟩ : ∃ b o, j = ix2 b o := ⟨j 0, j 1, eq_ix2 j⟩
  unfold val_main_v29
  refine (host_sum_box _ _ _ _ val_main_cst_8_apply b o).trans ?_
  refine Finset.sum_congr rfl fun d _ => Finset.sum_congr rfl fun h _ => Finset.sum_congr rfl fun w _ => ?_
  rw [hot_apply]

end Cert.ReferenceIdeal.Sums

end
-- ==== Proof.RefTail.lean ====
/-
  The reference's result is the shared tail of its own six sums.
-/
import proofs.«141704_j80470507258049_1_alg».proof.Proof.Gen.ReferenceIdeal.Run
import proofs.«141704_j80470507258049_1_alg».proof.Proof.Gen.ReferenceIdeal.Read
import proofs.«141704_j80470507258049_1_alg».proof.Proof.Tail
import proofs.«141704_j80470507258049_1_alg».proof.Proof.RefSums

noncomputable section

namespace Cert.ReferenceIdeal.Sums

open Cert.ReferenceIdeal Cert.ReferenceIdeal.Gen Cert.ReferenceIdeal.Read Cert.Dice
open Idealize.ShloMosaic Idealize.ShloMosaic.TcCoe Idealize.SL.Sem

variable {F : FTy → Type} [FloatOps F]

theorem v43_eq_tail (x0 x1 : (⟨S2x14x48x256x256, .f32⟩ : BufTy).Contents (Elt F)) (y : (⟨S2x48x256x256, .i32⟩ : BufTy).Contents (Elt F)) :
    val_main_v43 (F := F) x0 x1 y
      = diceTail bcast_S_S2x13 bcast_S_S2 reducesTo_S2x13_S2_d1 reducesTo_S2_S_d0 h_S_
          (val_main_v11 (F := F) x0 y) (val_main_v13 (F := F) x0) (val_main_v14 (F := F) y)
          (val_main_v26 (F := F) x1 y) (val_main_v28 (F := F) x1) (val_main_v29 (F := F) y) := by
  unfold diceTail half val_main_v43 val_main_v42 val_main_v41 val_main_v40 val_main_v39 val_main_v38 val_main_v37 val_main_v36
    val_main_v35 val_main_v34 val_main_v33 val_main_v32 val_main_v31 val_main_v30 val_main_v23 val_main_v22 val_main_v21
    val_main_v20 val_main_v19 val_main_v18 val_main_v17 val_main_v16 val_main_v15
    val_main_cst_15 val_main_cst_14 val_main_cst_13 val_main_cst_12 val_main_cst_11 val_main_cst_10 val_main_cst_9
    val_main_cst_5 val_main_cst_4 val_main_cst_3 val_main_cst_2
  rfl

/-- The reference's result is the shared arithmetic of the specification's sums of its own arguments. -/
theorem res_eq (m : (ℓ : Loc nD τ sig) → Buf (Elt Ideal) ℓ) (c : Dev nD) :
    Cert.ReferenceIdeal.Value.res_main_v43 m c
      = diceTail (F := Ideal) bcast_S_S2x13 bcast_S_S2 reducesTo_S2x13_S2_d1 reducesTo_S2_S_d0 h_S_
          (sumProd (m ((c.tc : Thread nD τ).loc main_arg0)) (m ((c.tc : Thread nD τ).loc main_arg2)))
          (sumSq (m ((c.tc : Thread nD τ).loc main_arg0)))
          (sumHot (m ((c.tc : Thread nD τ).loc main_arg2)))
          (sumProd (m ((c.tc : Thread nD τ).loc main_arg1)) (m ((c.tc : Thread nD τ).loc main_arg2)))
          (sumSq (m ((c.tc : Thread nD τ).loc main_arg1)))
          (sumHot (m ((c.tc : Thread nD τ).loc main_arg2))) := by
  rw [Cert.ReferenceIdeal.Read.val_main_v43_eq, v43_eq_tail, v11_eq, v13_eq, v14_eq, v26_eq, v28_eq, v29_eq]

end Cert.ReferenceIdeal.Sums

end
-- ==== Proof.lean ====
/-
  The dice loss of two prediction volumes `x₁, x₂ : [2, 14, 48, 256, 256]` against one label volume
  `y : [2, 48, 256, 256]`: for each batch `b` and organ `o` (label and channel `o + 1`) the five sums over
  (depth, height, width)

      inter₁ = Σ x₁ · [y = o + 1],  p₁ = Σ x₁²,  inter₂ = Σ x₂ · [y = o + 1],  p₂ = Σ x₂²,  t = Σ [y = o + 1],

  then  loss = mean over b of  2 − ( mean over o of 2·inter₁/(p₁ + t + ε)  +  mean over o of 2·inter₂/(p₂ + t + ε) ).

  The reference takes each sum in one reduction over the whole volume. The kernel walks the volume in 96 steps —
  two runs of 48, each step one depth slice and one 128-row tile — adding each step's tile sum into a (batch, organ)
  accumulator that is zeroed at a run's first step and written out after its last; the host then adds the two runs'
  rows. Over the extended reals addition is commutative and associative, so the order and grouping of the terms do
  not matter and the five sums agree (no finiteness of the inputs is used); the indicator is 1 or 0 in both
  spellings; and the arithmetic after the sums is the same term in both programs.

  Modules: Spec (the sums, the indicator, the tile sums), Regroup / Tiles / RunSum (the re-grouping of finite sums),
  KernelBlocks / KernelTile / KernelPieces / KernelChain / KernelFinal / KernelRun / KernelSums (the kernel's side),
  RefSums / RefTail (the reference's side), Tail (the shared arithmetic).
-/
import proofs.«141704_j80470507258049_1_alg».proof.Defs
import proofs.«141704_j80470507258049_1_alg».proof.Proof.Gen.Kernel
import proofs.«141704_j80470507258049_1_alg».proof.Proof.Gen.Kernel.Skeleton
import proofs.«141704_j80470507258049_1_alg».proof.Proof.Gen.Kernel.Launch
import proofs.«141704_j80470507258049_1_alg».proof.Proof.Gen.Kernel.Points
import proofs.«141704_j80470507258049_1_alg».proof.Proof.Gen.Kernel.Frame
import proofs.«141704_j80470507258049_1_alg».proof.Proof.Gen.KernelIdeal
import proofs.«141704_j80470507258049_1_alg».proof.Proof.Gen.KernelIdeal.Skeleton
import proofs.«141704_j80470507258049_1_alg».proof.Proof.Gen.KernelIdeal.Launch
import proofs.«141704_j80470507258049_1_alg».proof.Proof.Gen.KernelIdeal.Points
import proofs.«141704_j80470507258049_1_alg».proof.Proof.Gen.KernelIdeal.Frame
import proofs.«141704_j80470507258049_1_alg».proof.Proof.Gen.ReferenceIdeal
import proofs.«141704_j80470507258049_1_alg».proof.Proof.Gen.ReferenceIdeal.Run
import proofs.«141704_j80470507258049_1_alg».proof.Proof.Gen.ReferenceIdeal.Read
import proofs.«141704_j80470507258049_1_alg».proof.Proof.Gen.Pre_finite_inputs
import proofs.«141704_j80470507258049_1_alg».proof.Proof.KernelRun
import proofs.«141704_j80470507258049_1_alg».proof.Proof.KernelSums
import proofs.«141704_j80470507258049_1_alg».proof.Proof.RefSums
import proofs.«141704_j80470507258049_1_alg».proof.Proof.RefTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both results are the shared arithmetic of the same five sums of arguments that agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Sums.res_eq, (hagree c).1, (hagree c).2.1, (hagree c).2.2]
  exact (Cert.KernelIdeal.Sums.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
